-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S4096x128 : Shape := ⟨2, ![4096, 128]⟩
abbrev S8x128 : Shape := ⟨2, ![8, 128]⟩
abbrev S4096x16384 : Shape := ⟨2, ![4096, 16384]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S8x128 : S_.BroadcastsInDim S8x128 (![] : Fin 0 → Fin S8x128.rank)
  reducesTo_S8x128_S_d0_1 : S8x128.ReducesTo [0, 1] S_
  bcast_S_S4096x16384 : S_.BroadcastsInDim S4096x16384 (![] : Fin 0 → Fin S4096x16384.rank)
  reducesTo_S4096x16384_S_d0_1 : S4096x16384.ReducesTo [0, 1] S_

variable [Facts]

def fn_part1 {F : FTy → Type} [FloatOps F] (main_arg4 : FVec F S4096x16384 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S4096x16384 .f32 := Host.absf main_arg4
  let main_cst_6 : FVec F S_ .f32 := constant S_ .f32 0x7F800000#32
  let main_v20 : FVec F S4096x16384 .f32 := broadcastInDim S4096x16384 ![] bcast_S_S4096x16384 main_cst_6
  let main_v21 : IVec S4096x16384 1 := cmpf .olt main_v19 main_v20
  let main_c_7 : IVec S_ 1 := constantI S_ 1 1#1
  let main_v22 : IVec S_ 1 := (fun x v => Host.reduce IntOp.andi x v reducesTo_S4096x16384_S_d0_1 h_S_) main_v21 main_c_7
  let main_v23 : IVec S_ 1 := andi main_v18 main_v22
  main_v23

def fn {F : FTy → Type} [FloatOps F] (main_arg0 : FVec F S16384x128 .f32) (main_arg1 : FVec F S4096x128 .f32) (main_arg2 : FVec F S8x128 .f32) (main_arg3 : FVec F S8x128 .f32) (main_arg4 : FVec F S4096x16384 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S8x128 .f32 := Host.absf main_arg2
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S8x128 .f32 := Host.absf main_arg3
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg4 main_v13 main_v16
-- ==== Kernel.lean ====
abbrev S16384x128 : Shape := ⟨2, ![16384, 128]⟩
abbrev S4096x128 : Shape := ⟨2, ![4096, 128]⟩
abbrev S8x128 : Shape := ⟨2, ![8, 128]⟩
abbrev S4096x16384 : Shape := ⟨2, ![4096, 16384]⟩
abbrev S4096x1024 : Shape := ⟨2, ![4096, 1024]⟩
abbrev S1024x128 : Shape := ⟨2, ![1024, 128]⟩
abbrev S128x8 : Shape := ⟨2, ![128, 8]⟩
abbrev S4096x8 : Shape := ⟨2, ![4096, 8]⟩
abbrev S4096 : Shape := ⟨1, ![4096]⟩
abbrev S4096x1 : Shape := ⟨2, ![4096, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S4096x128, .f32⟩
  | .hbm, ⟨2, _⟩ => ⟨S8x128, .f32⟩
  | .hbm, ⟨3, _⟩ => ⟨S8x128, .f32⟩
  | .hbm, ⟨4, _⟩ => ⟨S4096x16384, .f32⟩
  | .hbm, ⟨5, _⟩ => ⟨S4096x128, .f32⟩
  | .local _ .vmem, ⟨0, _⟩ => ⟨S4096x128, .f32⟩
  | .local _ .vmem, ⟨1, _⟩ => ⟨S8x128, .f32⟩
  | .local _ .vmem, ⟨2, _⟩ => ⟨S8x128, .f32⟩
  | .local _ .vmem, ⟨3, _⟩ => ⟨S4096x1024, .f32⟩
  | .local _ .vmem, ⟨4, _⟩ => ⟨S4096x1024, .f32⟩
  | .local _ .vmem, ⟨5, _⟩ => ⟨S1024x128, .f32⟩
  | .local _ .vmem, ⟨6, _⟩ => ⟨S1024x128, .f32⟩
  | .local _ .vmem, ⟨7, _⟩ => ⟨S4096x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg0 : BitVec 32 := BitVec.ofNat 32 (i 0).val
  let c0_i32_4 : BitVec 32 := 0#32
  let v8 : BitVec 1 := Scalar.cmpi .sgt arg0 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg0 : BitVec 32 := BitVec.ofNat 32 (i 0).val
  let c15_i32 : BitVec 32 := 15#32
  let v11 : BitVec 1 := Scalar.cmpi .eq arg0 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  inb_S4096x1024_S4096x1024_0_0 : ∀ a, (![0, 0] : Fin 2 → Nat) a + S4096x1024.size a ≤ S4096x1024.size a
  h_S4096x1024 : 0 < S4096x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S8x128_S8x128_0_0 : ∀ a, (![0, 0] : Fin 2 → Nat) a + S8x128.size a ≤ S8x128.size a
  h_S8x128 : 0 < S8x128.numel
  transposes_S8x128_p1_0_S128x8 : S8x128.Transposes [1, 0] S128x8
  reduces_S4096x8_S4096 : S4096x8.Reduces [1] S4096
  shapeCasts_S4096_S4096x1 : S4096.ShapeCasts S4096x1
  broadcasts_S4096x1_S4096x8 : S4096x1.Broadcasts S4096x8
  dot_S4096x1024_S1024x128_S4096x128_1_0_0_1_n_n_wf : DotDims.WF S4096x1024 S1024x128 S4096x128 [1] [0] [0] [1] [] []
  dot_S4096x128_S128x8_S4096x8_1_0_0_1_n_n_wf : DotDims.WF S4096x128 S128x8 S4096x8 [1] [0] [0] [1] [] []
  dot_S4096x8_S8x128_S4096x128_1_0_0_1_n_n_wf : DotDims.WF S4096x8 S8x128 S4096x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x16384.size a
  hwx0_3 : ∀ i : grid0.Coords, EltTy.bits .f32 = 32 ∨ (Rect.block (s := S4096x16384) S4096x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S16384x128.size a
  hwx0_4 : ∀ i : grid0.Coords, EltTy.bits .f32 = 32 ∨ (Rect.block (s := S16384x128) S1024x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x128.size a
  hwx0_5 : ∀ i : grid0.Coords, EltTy.bits .f32 = 32 ∨ (Rect.block (s := S4096x128) S4096x128.size (cc0_transform_5 i) (hinb0_5 i)).WholeWords (EltTy.packing .f32)

variable [Facts₀]

def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S4096x128_S128x8_S4096x8_1_0_0_1_n_n : DotDims S4096x128 S128x8 S4096x8 where
  lhsContracting := [1]
  rhsContracting := [0]
  lhsNonContracting := [0]
  rhsNonContracting := [1]
  lhsBatch := []
  rhsBatch := []
  wf := dot_S4096x128_S128x8_S4096x8_1_0_0_1_n_n_wf
def dot_S4096x8_S8x128_S4096x128_1_0_0_1_n_n : DotDims S4096x8 S8x128 S4096x128 where
  lhsContracting := [1]
  rhsContracting := [0]
  lhsNonContracting := [0]
  rhsNonContracting := [1]
  lhsBatch := []
  rhsBatch := []
  wf := dot_S4096x8_S8x128_S4096x128_1_0_0_1_n_n_wf

abbrev win0_0 : Pipeline.Window sig grid0 :=
  Pipeline.Window.ofSpec (Memref.whole main_arg1) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4096x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4096x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) && !(k0_cond3 i == 1#1) | ⟨_ + 6, h⟩ => absurd h (Nat.not_lt.2 (Nat.le_add_left _ _))

class Facts : Prop extends Facts₀ where

variable [Facts]
-- ==== ReferenceIdeal.lean ====
abbrev S16384x128 : Shape := ⟨2, ![16384, 128]⟩
abbrev S4096x128 : Shape := ⟨2, ![4096, 128]⟩
abbrev S8x128 : Shape := ⟨2, ![8, 128]⟩
abbrev S4096x16384 : Shape := ⟨2, ![4096, 16384]⟩
abbrev S128x8 : Shape := ⟨2, ![128, 8]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S4096x8x1 : Shape := ⟨3, ![4096, 8, 1]⟩
abbrev S4096x8x128 : Shape := ⟨3, ![4096, 8, 128]⟩

abbrev nBuf : Space → Nat
  | .hbm => 30
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S4096x128, .f32⟩
  | .hbm, ⟨2, _⟩ => ⟨S8x128, .f32⟩
  | .hbm, ⟨3, _⟩ => ⟨S8x128, .f32⟩
  | .hbm, ⟨4, _⟩ => ⟨S4096x16384, .f32⟩
  | .hbm, ⟨5, _⟩ => ⟨S128x8, .f32⟩
  | .hbm, ⟨6, _⟩ => ⟨S4096x8, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096x1, .f32⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x8, .f32⟩
  | .hbm, ⟨20, _⟩ => ⟨S4096x8, .f32⟩
  | .hbm, ⟨21, _⟩ => ⟨S4096x8x1, .f32⟩
  | .hbm, ⟨22, _⟩ => ⟨S4096x128, .f32⟩
  | .hbm, ⟨23, _⟩ => ⟨S4096x8x128, .f32⟩
  | .hbm, ⟨24, _⟩ => ⟨S4096x8x128, .f32⟩
  | .hbm, ⟨25, _⟩ => ⟨S4096x8x128, .f32⟩
  | .hbm, ⟨26, _⟩ => ⟨S_, .f32⟩
  | .hbm, ⟨27, _⟩ => ⟨S4096x128, .f32⟩
  | .hbm, ⟨28, _⟩ => ⟨S4096x128, .f32⟩
  | .hbm, ⟨29, _⟩ => ⟨S4096x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  transposes_S8x128_S128x8_1_0 : S8x128.Transposes [1, 0] S128x8
  reducesTo_S4096x8_S4096_d1 : S4096x8.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x8_0_1 : S4096x1.BroadcastsInDim S4096x8 (![0, 1] : Fin 2 → Fin S4096x8.rank)
  bcast_S4096x8_S4096x8x1_0_1 : S4096x8.BroadcastsInDim S4096x8x1 (![0, 1] : Fin 2 → Fin S4096x8x1.rank)
  bcast_S8x128_S4096x8x128_1_2 : S8x128.BroadcastsInDim S4096x8x128 (![1, 2] : Fin 2 → Fin S4096x8x128.rank)
  bcast_S4096x8x1_S4096x8x128_0_1_2 : S4096x8x1.BroadcastsInDim S4096x8x128 (![0, 1, 2] : Fin 3 → Fin S4096x8x128.rank)
  reducesTo_S4096x8x128_S4096x128_d1 : S4096x8x128.ReducesTo [1] S4096x128
  dot_S4096x128_S128x8_S4096x8_1_0_0_1_n_n_wf : DotDims.WF S4096x128 S128x8 S4096x8 [1] [0] [0] [1] [] []
  dot_S4096x16384_S16384x128_S4096x128_1_0_0_1_n_n_wf : DotDims.WF S4096x16384 S16384x128 S4096x128 [1] [0] [0] [1] [] []

variable [Facts₀]

def dot_S4096x128_S128x8_S4096x8_1_0_0_1_n_n : DotDims S4096x128 S128x8 S4096x8 where
  lhsContracting := [1]
  rhsContracting := [0]
  lhsNonContracting := [0]
  rhsNonContracting := [1]
  lhsBatch := []
  rhsBatch := []
  wf := dot_S4096x128_S128x8_S4096x8_1_0_0_1_n_n_wf
def dot_S4096x16384_S16384x128_S4096x128_1_0_0_1_n_n : DotDims S4096x16384 S16384x128 S4096x128 where
  lhsContracting := [1]
  rhsContracting := [0]
  lhsNonContracting := [0]
  rhsNonContracting := [1]
  lhsBatch := []
  rhsBatch := []
  wf := dot_S4096x16384_S16384x128_S4096x128_1_0_0_1_n_n_wf

class Facts : Prop extends Facts₀ where

variable [Facts]
-- ==== Proof.KernelPoints.lean ====
/-
  The grid of the one pallas_call has sixteen points, one per slab of 1024 entities. The body branches on the
  point three times: the first point alone resets the resident output block, every later point adds to it, and
  the last point also scales it. Here the three conditions are put in closed form over the point's number,
  every window is shown live at every point, and the staging memrefs the body is called with are named.
-/
import proofs.«139097_g16647293239300_cont_7to1_181_15_alg».proof.Proof.Gen.Kernel.Frame
import proofs.«139097_g16647293239300_cont_7to1_181_15_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reset branch is taken at point 0 only. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- The accumulating branch is taken at every point but the first. -/
theorem later_iff : ∀ t : Fin cfg0.N, k0_cond2 (grid0.coords t) = 1#1 ↔ 1 ≤ t.val :=
  (by decide +kernel : ∀ t : Fin grid0.N, k0_cond2 (grid0.coords t) = 1#1 ↔ 1 ≤ t.val)

/-- The scaling branch is taken at point 15 only. -/
theorem last_iff : ∀ t : Fin cfg0.N, k0_cond3 (grid0.coords t) = 1#1 ↔ t.val = 15 :=
  (by decide +kernel : ∀ t : Fin grid0.N, k0_cond3 (grid0.coords t) = 1#1 ↔ t.val = 15)

/-- No window is idle at any point: the inputs never are, and the output is stored at every point because
    one of "first" and "later" always holds. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- The staging memref each window is on at point `t`, as the pipeline passes it to the body, and its wholeness. -/
abbrev mUser (t : Fin cfg0.N) : Memref sig .tc .vmem S4096x128 .f32 := win0_0.stage (cfg0.slots t 0)
abbrev hUser (t : Fin cfg0.N) : (mUser t).IsWhole := hstage0_0 ((cfg0.slots t 0).cast nbuf0_0)
abbrev mLatent (t : Fin cfg0.N) : Memref sig .tc .vmem S8x128 .f32 := win0_1.stage (cfg0.slots t 1)
abbrev hLatent (t : Fin cfg0.N) : (mLatent t).IsWhole := hstage0_1 ((cfg0.slots t 1).cast nbuf0_1)
abbrev mWeight (t : Fin cfg0.N) : Memref sig .tc .vmem S8x128 .f32 := win0_2.stage (cfg0.slots t 2)
abbrev hWeight (t : Fin cfg0.N) : (mWeight t).IsWhole := hstage0_2 ((cfg0.slots t 2).cast nbuf0_2)
abbrev mInter (t : Fin cfg0.N) : Memref sig .tc .vmem S4096x1024 .f32 := win0_3.stage (cfg0.slots t 3)
abbrev hInter (t : Fin cfg0.N) : (mInter t).IsWhole := hstage0_3 ((cfg0.slots t 3).cast nbuf0_3)
abbrev mEntity (t : Fin cfg0.N) : Memref sig .tc .vmem S1024x128 .f32 := win0_4.stage (cfg0.slots t 4)
abbrev hEntity (t : Fin cfg0.N) : (mEntity t).IsWhole := hstage0_4 ((cfg0.slots t 4).cast nbuf0_4)
abbrev mOut (t : Fin cfg0.N) : Memref sig .tc .vmem S4096x128 .f32 := win0_5.stage (cfg0.slots t 5)
abbrev hOut (t : Fin cfg0.N) : (mOut t).IsWhole := hstage0_5 ((cfg0.slots t 5).cast nbuf0_5)

/-- The zero offsets of a whole-block load or store, however spelt. -/
theorem zeroOff : (![0, 0] : Fin 2 → Nat) = fun _ => 0 := by
  funext a; match a with | ⟨0, _⟩ => rfl | ⟨1, _⟩ => rfl

end Cert.Kernel.Body

end
-- ==== Proof.KernelRuns.lean ====
/-
  The kernel body run once in each of the three cases the grid meets, on whole staging memrefs holding the
  windows' blocks. Every store of the body covers the whole [4096,128] output block, so what the block holds
  afterwards is the stored value itself:
    at the first point            the slab's product                         (`k0_pay1`),
    at a later point, not last    what it held plus the slab's product        (`k0_pay2`),
    at the last point             that sum, times one plus the gate           (`k0_pay3` of `k0_pay2`).
  The inputs' memrefs are handed back as they were.
-/
import proofs.«139097_g16647293239300_cont_7to1_181_15_alg».proof.Proof.KernelPoints
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Every index of a block lies in the whole-block rectangle, so one whole-block store covers it. -/
theorem wholeCover {S : Shape} {Val : EltTy → Type} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.mem_cons_self, View.mem_set_unit_zero h inb y⟩

set_option maxHeartbeats 1000000 in
/-- The first point: the block is reset to the slab's product, whatever it held. -/
theorem runFirst (c : Dev nD) (i : grid0.Coords) (arg1 : Memref sig .tc .vmem S4096x128 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S4096x1024 .f32) (harg4 : arg4.IsWhole) (arg5 : Memref sig .tc .vmem S1024x128 .f32) (harg5 : arg5.IsWhole) (arg6 : Memref sig .tc .vmem S4096x128 .f32) (harg6 : arg6.IsWhole)
    (hc0 : k0_cond1 i = 1#1) (hc1 : ¬k0_cond2 i = 1#1) (hc2 : ¬k0_cond3 i = 1#1) (x0 : Vec F S4096x128 .f32) (x1 x2 : Vec F S8x128 .f32) (x3 : Vec F S4096x1024 .f32) (x4 : Vec F S1024x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay1 x3 x4)) -∗ K ⟨⟩))
          ⊢ wp frame (wpE (defs₀ (F := F)) Variants.none c none) E (cc0__agg_kernel i arg1 harg1 arg2 harg2 arg3 harg3 arg4 harg4 arg5 harg5 arg6 harg6) K := by
    intro E K
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; isplitr; swap; · iexact H5
    ipureintro
    rw [View.read_writes_eq_canon _ _ _ (wholeCover zeroOff _ _ _), View.canon_unit_zero zeroOff]
    simp only [View.readAt_eq_ld, harg4.read_unread, harg5.read_unread, View.ld_unit_zero (S := S4096x1024) zeroOff,
      View.ld_unit_zero (S := S1024x128) zeroOff]

set_option maxHeartbeats 1000000 in
/-- A later point that is not the last: the slab's product is added to what the block held. -/
theorem runLater (c : Dev nD) (i : grid0.Coords) (arg1 : Memref sig .tc .vmem S4096x128 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S4096x1024 .f32) (harg4 : arg4.IsWhole) (arg5 : Memref sig .tc .vmem S1024x128 .f32) (harg5 : arg5.IsWhole) (arg6 : Memref sig .tc .vmem S4096x128 .f32) (harg6 : arg6.IsWhole)
    (hc0 : ¬k0_cond1 i = 1#1) (hc1 : k0_cond2 i = 1#1) (hc2 : ¬k0_cond3 i = 1#1) (x0 : Vec F S4096x128 .f32) (x1 x2 : Vec F S8x128 .f32) (x3 : Vec F S4096x1024 .f32) (x4 : Vec F S1024x128 .f32) (xo : Vec F S4096x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay2 x3 x4 xo)) -∗ K ⟨⟩))
          ⊢ wp frame (wpE (defs₀ (F := F)) Variants.none c none) E (cc0__agg_kernel i arg1 harg1 arg2 harg2 arg3 harg3 arg4 harg4 arg5 harg5 arg6 harg6) K := by
    intro E K
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; isplitr; swap; · iexact H5
    ipureintro
    rw [View.read_writes_eq_canon _ _ _ (wholeCover zeroOff _ _ _), View.canon_unit_zero zeroOff]
    simp only [View.readAt_eq_ld, harg4.read_unread, harg5.read_unread, harg6.read_unread, View.ld_unit_zero (S := S4096x1024) zeroOff,
      View.ld_unit_zero (S := S1024x128) zeroOff, View.ld_unit_zero (S := S4096x128) zeroOff]

set_option maxHeartbeats 1000000 in
/-- The last point: the slab's product is added, and the sum is scaled by one plus the gate. -/
theorem runLast (c : Dev nD) (i : grid0.Coords) (arg1 : Memref sig .tc .vmem S4096x128 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S4096x1024 .f32) (harg4 : arg4.IsWhole) (arg5 : Memref sig .tc .vmem S1024x128 .f32) (harg5 : arg5.IsWhole) (arg6 : Memref sig .tc .vmem S4096x128 .f32) (harg6 : arg6.IsWhole)
    (hc0 : ¬k0_cond1 i = 1#1) (hc1 : k0_cond2 i = 1#1) (hc2 : k0_cond3 i = 1#1) (x0 : Vec F S4096x128 .f32) (x1 x2 : Vec F S8x128 .f32) (x3 : Vec F S4096x1024 .f32) (x4 : Vec F S1024x128 .f32) (xo : Vec F S4096x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 x0 x1 x2 (k0_pay2 x3 x4 xo))) -∗ K ⟨⟩))
          ⊢ wp frame (wpE (defs₀ (F := F)) Variants.none c none) E (cc0__agg_kernel i arg1 harg1 arg2 harg2 arg3 harg3 arg4 harg4 arg5 harg5 arg6 harg6) K := by
    intro E K
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; isplitr; swap; · iexact H5
    ipureintro
    rw [View.read_writes_eq_canon _ _ _ (wholeCover zeroOff _ _ _), View.canon_cons_unit_zero zeroOff]
    sl_unfold_run_names
    simp only [View.readCov_unit_zero (S := S4096x128) _ zeroOff, View.readAt_eq_ld, harg1.read_unread, harg2.read_unread, harg3.read_unread,
      harg4.read_unread, harg5.read_unread, harg6.read_unread, View.ld_unit_zero (S := S4096x1024) zeroOff,
      View.ld_unit_zero (S := S1024x128) zeroOff, View.ld_unit_zero (S := S4096x128) zeroOff, View.ld_unit_zero (S := S8x128) zeroOff]

end Cert.Kernel.Body

end
-- ==== Proof.KernelFrame.lean ====
/-
  The frame of the one pallas_call, with the output block's contents named point by point.

  The [4096,128] output block stays resident in its staging buffer for the whole grid and is written back once,
  after the last point. What it holds after point n is defined by recursion on n: the first slab's product at
  point 0; at a later point the previous contents plus that point's slab product; and at point 15 that sum
  scaled by one plus the gate. Each input window's buffer holds its block at every point. With this proof data
  the body meets its obligation at every point (by the run of the case the point is in), and the pipeline's run
  leaves every argument array as it was and the result array at the contents written back.
-/
import proofs.«139097_g16647293239300_cont_7to1_181_15_alg».proof.Proof.KernelRuns

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is live at every setting of the grid coordinate (not only at grid points): the coordinate is
    zero or positive. -/
theorem liveAll5 : ∀ i : grid0.Coords, cfg0.idle 5 i = false := by decide +kernel

/-! ## The windows' blocks at a point, at their literal types -/

/-- The user embeddings (the whole array at every point). -/
abbrev bUser (c : Dev nD) (t : Fin cfg0.N) : Vec F S4096x128 .f32 := iblk m c 0 t
/-- The latent factors. -/
abbrev bLatent (c : Dev nD) (t : Fin cfg0.N) : Vec F S8x128 .f32 := iblk m c 1 t
/-- The factor weights. -/
abbrev bWeight (c : Dev nD) (t : Fin cfg0.N) : Vec F S8x128 .f32 := iblk m c 2 t
/-- Slab `t` of the interaction matrix: its columns 1024 t … 1024 t + 1023. -/
abbrev bInter (c : Dev nD) (t : Fin cfg0.N) : Vec F S4096x1024 .f32 := iblk m c 3 t
/-- Slab `t` of the entity embeddings: its rows 1024 t … 1024 t + 1023. -/
abbrev bEntity (c : Dev nD) (t : Fin cfg0.N) : Vec F S1024x128 .f32 := iblk m c 4 t

/-! ## What the output block holds after each point -/

/-- The resident output block after point `n`. -/
def outAt (c : Dev nD) : (n : ℕ) → n < cfg0.N → Vec F S4096x128 .f32
  | 0, hn => k0_pay1 (bInter m c ⟨0, hn⟩) (bEntity m c ⟨0, hn⟩)
  | n + 1, hn =>
    if n + 1 = 15 then
      k0_pay3 (bUser m c ⟨n + 1, hn⟩) (bLatent m c ⟨n + 1, hn⟩) (bWeight m c ⟨n + 1, hn⟩)
        (k0_pay2 (bInter m c ⟨n + 1, hn⟩) (bEntity m c ⟨n + 1, hn⟩) (outAt c n (Nat.lt_of_succ_lt hn)))
    else
      k0_pay2 (bInter m c ⟨n + 1, hn⟩) (bEntity m c ⟨n + 1, hn⟩) (outAt c n (Nat.lt_of_succ_lt hn))

/-- At the first point: the slab's product. -/
theorem outAt_first (c : Dev nD) (t : Fin cfg0.N) (h0 : t.val = 0) :
    outAt m c t.val t.isLt = k0_pay1 (bInter m c t) (bEntity m c t) := by
  obtain ⟨n, hn⟩ := t
  cases n with
  | zero => exact rfl
  | succ n => exact absurd h0 (Nat.succ_ne_zero n)

/-- At a later point that is not the last: the previous contents plus the slab's product. -/
theorem outAt_later (c : Dev nD) (t : Fin cfg0.N) (h0 : t.val ≠ 0) (h15 : t.val ≠ 15) :
    outAt m c t.val t.isLt
      = k0_pay2 (bInter m c t) (bEntity m c t) (outAt m c (t.val - 1) (Nat.lt_of_le_of_lt (Nat.sub_le _ _) t.isLt)) := by
  obtain ⟨n, hn⟩ := t
  cases n with
  | zero => exact absurd rfl h0
  | succ n => exact (if_neg h15).trans rfl

/-- At the last point: that sum, scaled by one plus the gate. -/
theorem outAt_last (c : Dev nD) (t : Fin cfg0.N) (h15 : t.val = 15) :
    outAt m c t.val t.isLt
      = k0_pay3 (bUser m c t) (bLatent m c t) (bWeight m c t)
          (k0_pay2 (bInter m c t) (bEntity m c t) (outAt m c (t.val - 1) (Nat.lt_of_le_of_lt (Nat.sub_le _ _) t.isLt))) := by
  obtain ⟨n, hn⟩ := t
  cases n with
  | zero => exact absurd h15 (Nat.zero_ne_add_one 14)
  | succ n => exact (if_pos h15).trans rfl

/-! ## The pipeline's proof data -/

/-- The arrays as the region finds them; after the body at point `t` each input's buffer at its block and the
    output's at `outAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- At every point but the first the output's staging buffer holds what the body left at the point before:
    the block is written back only after the last point, and the window is live and uncut. -/
theorem before5 (c : Dev nD) (t : Fin cfg0.N) (h0 : t.val ≠ 0) (d) :
    (dats m 0 c).before 5 t d = outAt m c (t.val - 1) (Nat.lt_of_le_of_lt (Nat.sub_le _ _) t.isLt) := by
  have hN : t.val < 16 := lt_of_lt_of_eq t.isLt (show cfg0.N = 16 from N_0)
  rw [Dat.before_out_kept _ 5 rfl t h0 (Bool.eq_false_iff.mpr fun h => by have := (flush0_5 _).mp h; dsimp only at this; omega)
    liveAll5 (fun _ _ => rfl)]
  dsimp only [dats]

/-- No window is idle at any point, so each buffer is left at what the body leaves. -/
theorem leaves0 (c : Dev nD) (t : Fin cfg0.N) :
    (dats m 0 c).leavesExact 0 t = owns (c : Thread nD τ) (mUser t) fullShare ((dats m 0 c).after 0 t) := by
  unfold Dat.leavesExact; rw [live0 t]
theorem leaves1 (c : Dev nD) (t : Fin cfg0.N) :
    (dats m 0 c).leavesExact 1 t = owns (c : Thread nD τ) (mLatent t) fullShare ((dats m 0 c).after 1 t) := by
  unfold Dat.leavesExact; rw [live1 t]
theorem leaves2 (c : Dev nD) (t : Fin cfg0.N) :
    (dats m 0 c).leavesExact 2 t = owns (c : Thread nD τ) (mWeight t) fullShare ((dats m 0 c).after 2 t) := by
  unfold Dat.leavesExact; rw [live2 t]
theorem leaves3 (c : Dev nD) (t : Fin cfg0.N) :
    (dats m 0 c).leavesExact 3 t = owns (c : Thread nD τ) (mInter t) fullShare ((dats m 0 c).after 3 t) := by
  unfold Dat.leavesExact; rw [live3 t]
theorem leaves4 (c : Dev nD) (t : Fin cfg0.N) :
    (dats m 0 c).leavesExact 4 t = owns (c : Thread nD τ) (mEntity t) fullShare ((dats m 0 c).after 4 t) := by
  unfold Dat.leavesExact; rw [live4 t]
theorem leaves5 (c : Dev nD) (t : Fin cfg0.N) :
    (dats m 0 c).leavesExact 5 t = owns (c : Thread nD τ) (mOut t) fullShare ((dats m 0 c).after 5 t) := by
  unfold Dat.leavesExact; rw [live5 t]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mUser t) fullShare ((dats m 0 c).before 0 t d))
    ∗ (∃ d, owns (c : Thread nD τ) (mLatent t) fullShare ((dats m 0 c).before 1 t d))
    ∗ (∃ d, owns (c : Thread nD τ) (mWeight t) fullShare ((dats m 0 c).before 2 t d))
    ∗ (∃ d, owns (c : Thread nD τ) (mInter t) fullShare ((dats m 0 c).before 3 t d))
    ∗ (∃ d, owns (c : Thread nD τ) (mEntity t) fullShare ((dats m 0 c).before 4 t d))
    ∗ (∃ d, owns (c : Thread nD τ) (mOut t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point: the inputs' buffers hold their blocks; the point is the first, the last, or in between,
    and in the last two cases the output's buffer holds what the point before left; the case's run applies; the
    invariant passes through unread and the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    leaves0, leaves1, leaves2, leaves3, leaves4, leaves5, after0, after1, after2, after3, after4, after5]
  have hN : t.val < 16 := lt_of_lt_of_eq t.isLt (show cfg0.N = 16 from N_0)
  by_cases h0 : t.val = 0
  · rw [outAt_first m c t h0]
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ ((first_iff t).mpr h0)
      (fun h => by have := (later_iff t).mp h; omega) (fun h => by have := (last_iff t).mp h; omega)
      (bUser m c t) (bLatent m c t) (bWeight m c t) (bInter m c t) (bEntity m c t)) Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · by_cases h15 : t.val = 15
    · rw [outAt_last m c t h15]
      simp only [before5 m c t h0]
      iintro ⟨HΦ, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ (fun h => h0 ((first_iff t).mp h))
        ((later_iff t).mpr (by omega)) ((last_iff t).mpr h15)
        (bUser m c t) (bLatent m c t) (bWeight m c t) (bInter m c t) (bEntity m c t) _) Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · rw [outAt_later m c t h0 h15]
      simp only [before5 m c t h0]
      iintro ⟨HΦ, Ho, ⟨%d0, H0⟩, ⟨%d1, H1⟩, ⟨%d2, H2⟩, ⟨%d3, H3⟩, ⟨%d4, H4⟩, ⟨%d5, H5⟩⟩
      iapply ((runLater c (grid0.coords t) _ _ _ _ _ _ _ _ _ _ _ _ (fun h => h0 ((first_iff t).mp h))
        ((later_iff t).mpr (by omega)) (fun h => h15 ((last_iff t).mp h))
        (bUser m c t) (bLatent m c t) (bWeight m c t) (bInter m c t) (bEntity m c t) _) Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data's write-backs leave there and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KernelIdealPoints.lean ====
/-
  The grid of the one pallas_call has sixteen points, one per slab of 1024 entities. The body branches on the
  point three times: the first point alone resets the resident output block, every later point adds to it, and
  the last point also scales it. Here the three conditions are put in closed form over the point's number,
  every window is shown live at every point, and the staging memrefs the body is called with are named.
-/
import proofs.«139097_g16647293239300_cont_7to1_181_15_alg».proof.Proof.Gen.KernelIdeal.Frame
import proofs.«139097_g16647293239300_cont_7to1_181_15_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reset branch is taken at point 0 only. -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- The accumulating branch is taken at every point but the first. -/
theorem later_iff : ∀ t : Fin cfg0.N, k0_cond2 (grid0.coords t) = 1#1 ↔ 1 ≤ t.val :=
  (by decide +kernel : ∀ t : Fin grid0.N, k0_cond2 (grid0.coords t) = 1#1 ↔ 1 ≤ t.val)

/-- The scaling branch is taken at point 15 only. -/
theorem last_iff : ∀ t : Fin cfg0.N, k0_cond3 (grid0.coords t) = 1#1 ↔ t.val = 15 :=
  (by decide +kernel : ∀ t : Fin grid0.N, k0_cond3 (grid0.coords t) = 1#1 ↔ t.val = 15)

/-- No window is idle at any point: the inputs never are, and the output is stored at every point because
    one of "first" and "later" always holds. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- The staging memref each window is on at point `t`, as the pipeline passes it to the body, and its wholeness. -/
abbrev mUser (t : Fin cfg0.N) : Memref sig .tc .vmem S4096x128 .f32 := win0_0.stage (cfg0.slots t 0)
abbrev hUser (t : Fin cfg0.N) : (mUser t).IsWhole := hstage0_0 ((cfg0.slots t 0).cast nbuf0_0)
abbrev mLatent (t : Fin cfg0.N) : Memref sig .tc .vmem S8x128 .f32 := win0_1.stage (cfg0.slots t 1)
abbrev hLatent (t : Fin cfg0.N) : (mLatent t).IsWhole := hstage0_1 ((cfg0.slots t 1).cast nbuf0_1)
abbrev mWeight (t : Fin cfg0.N) : Memref sig .tc .vmem S8x128 .f32 := win0_2.stage (cfg0.slots t 2)
abbrev hWeight (t : Fin cfg0.N) : (mWeight t).IsWhole := hstage0_2 ((cfg0.slots t 2).cast nbuf0_2)
abbrev mInter (t : Fin cfg0.N) : Memref sig .tc .vmem S4096x1024 .f32 := win0_3.stage (cfg0.slots t 3)
abbrev hInter (t : Fin cfg0.N) : (mInter t).IsWhole := hstage0_3 ((cfg0.slots t 3).cast nbuf0_3)
abbrev mEntity (t : Fin cfg0.N) : Memref sig .tc .vmem S1024x128 .f32 := win0_4.stage (cfg0.slots t 4)
abbrev hEntity (t : Fin cfg0.N) : (mEntity t).IsWhole := hstage0_4 ((cfg0.slots t 4).cast nbuf0_4)
abbrev mOut (t : Fin cfg0.N) : Memref sig .tc .vmem S4096x128 .f32 := win0_5.stage (cfg0.slots t 5)
abbrev hOut (t : Fin cfg0.N) : (mOut t).IsWhole := hstage0_5 ((cfg0.slots t 5).cast nbuf0_5)

/-- The zero offsets of a whole-block load or store, however spelt. -/
theorem zeroOff : (![0, 0] : Fin 2 → Nat) = fun _ => 0 := by
  funext a; match a with | ⟨0, _⟩ => rfl | ⟨1, _⟩ => rfl

end Cert.KernelIdeal.Body

end
-- ==== Proof.KernelIdealRuns.lean ====
/-
  The kernel body run once in each of the three cases the grid meets, on whole staging memrefs holding the
  windows' blocks. Every store of the body covers the whole [4096,128] output block, so what the block holds
  afterwards is the stored value itself:
    at the first point            the slab's product                         (`k0_pay1`),
    at a later point, not last    what it held plus the slab's product        (`k0_pay2`),
    at the last point             that sum, times one plus the gate           (`k0_pay3` of `k0_pay2`).
  The inputs' memrefs are handed back as they were.
-/
import proofs.«139097_g16647293239300_cont_7to1_181_15_alg».proof.Proof.KernelIdealPoints
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Every index of a block lies in the whole-block rectangle, so one whole-block store covers it. -/
theorem wholeCover {S : Shape} {Val : EltTy → Type} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.mem_cons_self, View.mem_set_unit_zero h inb y⟩

set_option maxHeartbeats 1000000 in
/-- The first point: the block is reset to the slab's product, whatever it held. -/
theorem runFirst (c : Dev nD) (i : grid0.Coords) (arg1 : Memref sig .tc .vmem S4096x128 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S4096x1024 .f32) (harg4 : arg4.IsWhole) (arg5 : Memref sig .tc .vmem S1024x128 .f32) (harg5 : arg5.IsWhole) (arg6 : Memref sig .tc .vmem S4096x128 .f32) (harg6 : arg6.IsWhole)
    (hc0 : k0_cond1 i = 1#1) (hc1 : ¬k0_cond2 i = 1#1) (hc2 : ¬k0_cond3 i = 1#1) (x0 : Vec F S4096x128 .f32) (x1 x2 : Vec F S8x128 .f32) (x3 : Vec F S4096x1024 .f32) (x4 : Vec F S1024x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay1 x3 x4)) -∗ K ⟨⟩))
          ⊢ wp frame (wpE (defs₀ (F := F)) Variants.none c none) E (cc0__agg_kernel i arg1 harg1 arg2 harg2 arg3 harg3 arg4 harg4 arg5 harg5 arg6 harg6) K := by
    intro E K
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; isplitr; swap; · iexact H5
    ipureintro
    rw [View.read_writes_eq_canon _ _ _ (wholeCover zeroOff _ _ _), View.canon_unit_zero zeroOff]
    simp only [View.readAt_eq_ld, harg4.read_unread, harg5.read_unread, View.ld_unit_zero (S := S4096x1024) zeroOff,
      View.ld_unit_zero (S := S1024x128) zeroOff]

set_option maxHeartbeats 1000000 in
/-- A later point that is not the last: the slab's product is added to what the block held. -/
theorem runLater (c : Dev nD) (i : grid0.Coords) (arg1 : Memref sig .tc .vmem S4096x128 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S4096x1024 .f32) (harg4 : arg4.IsWhole) (arg5 : Memref sig .tc .vmem S1024x128 .f32) (harg5 : arg5.IsWhole) (arg6 : Memref sig .tc .vmem S4096x128 .f32) (harg6 : arg6.IsWhole)
    (hc0 : ¬k0_cond1 i = 1#1) (hc1 : k0_cond2 i = 1#1) (hc2 : ¬k0_cond3 i = 1#1) (x0 : Vec F S4096x128 .f32) (x1 x2 : Vec F S8x128 .f32) (x3 : Vec F S4096x1024 .f32) (x4 : Vec F S1024x128 .f32) (xo : Vec F S4096x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay2 x3 x4 xo)) -∗ K ⟨⟩))
          ⊢ wp frame (wpE (defs₀ (F := F)) Variants.none c none) E (cc0__agg_kernel i arg1 harg1 arg2 harg2 arg3 harg3 arg4 harg4 arg5 harg5 arg6 harg6) K := by
    intro E K
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; isplitr; swap; · iexact H5
    ipureintro
    rw [View.read_writes_eq_canon _ _ _ (wholeCover zeroOff _ _ _), View.canon_unit_zero zeroOff]
    simp only [View.readAt_eq_ld, harg4.read_unread, harg5.read_unread, harg6.read_unread, View.ld_unit_zero (S := S4096x1024) zeroOff,
      View.ld_unit_zero (S := S1024x128) zeroOff, View.ld_unit_zero (S := S4096x128) zeroOff]

set_option maxHeartbeats 1000000 in
/-- The last point: the slab's product is added, and the sum is scaled by one plus the gate. -/
theorem runLast (c : Dev nD) (i : grid0.Coords) (arg1 : Memref sig .tc .vmem S4096x128 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S4096x1024 .f32) (harg4 : arg4.IsWhole) (arg5 : Memref sig .tc .vmem S1024x128 .f32) (harg5 : arg5.IsWhole) (arg6 : Memref sig .tc .vmem S4096x128 .f32) (harg6 : arg6.IsWhole)
    (hc0 : ¬k0_cond1 i = 1#1) (hc1 : k0_cond2 i = 1#1) (hc2 : k0_cond3 i = 1#1) (x0 : Vec F S4096x128 .f32) (x1 x2 : Vec F S8x128 .f32) (x3 : Vec F S4096x1024 .f32) (x4 : Vec F S1024x128 .f32) (xo : Vec F S4096x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 x0 x1 x2 (k0_pay2 x3 x4 xo))) -∗ K ⟨⟩))
          ⊢ wp frame (wpE (defs₀ (F := F)) Variants.none c none) E (cc0__agg_kernel i arg1 harg1 arg2 harg2 arg3 harg3 arg4 harg4 arg5 harg5 arg6 harg6) K := by
    intro E K
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; isplitr; swap; · iexact H5
    ipureintro
    rw [View.read_writes_eq_canon _ _ _ (wholeCover zeroOff _ _ _), View.canon_cons_unit_zero zeroOff]
    sl_unfold_run_names
    simp only [View.readCov_unit_zero (S := S4096x128) _ zeroOff, View.readAt_eq_ld, harg1.read_unread, harg2.read_unread, harg3.read_unread,
      harg4.read_unread, harg5.read_unread, harg6.read_unread, View.ld_unit_zero (S := S4096x1024) zeroOff,
      View.ld_unit_zero (S := S1024x128) zeroOff, View.ld_unit_zero (S := S4096x128) zeroOff, View.ld_unit_zero (S := S8x128) zeroOff]

end Cert.KernelIdeal.Body

end
-- ==== Proof.KernelIdealFrame.lean ====
/-
  The frame of the one pallas_call, with the output block's contents named point by point.

  The [4096,128] output block stays resident in its staging buffer for the whole grid and is written back once,
  after the last point. What it holds after point n is defined by recursion on n: the first slab's product at
  point 0; at a later point the previous contents plus that point's slab product; and at point 15 that sum
  scaled by one plus the gate. Each input window's buffer holds its block at every point. With this proof data
  the body meets its obligation at every point (by the run of the case the point is in), and the pipeline's run
  leaves every argument array as it was and the result array at the contents written back.
-/
import proofs.«139097_g16647293239300_cont_7to1_181_15_alg».proof.Proof.KernelIdealRuns

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is live at every setting of the grid coordinate (not only at grid points): the coordinate is
    zero or positive. -/
theorem liveAll5 : ∀ i : grid0.Coords, cfg0.idle 5 i = false := by decide +kernel

/-! ## The windows' blocks at a point, at their literal types -/

/-- The user embeddings (the whole array at every point). -/
abbrev bUser (c : Dev nD) (t : Fin cfg0.N) : Vec F S4096x128 .f32 := iblk m c 0 t
/-- The latent factors. -/
abbrev bLatent (c : Dev nD) (t : Fin cfg0.N) : Vec F S8x128 .f32 := iblk m c 1 t
/-- The factor weights. -/
abbrev bWeight (c : Dev nD) (t : Fin cfg0.N) : Vec F S8x128 .f32 := iblk m c 2 t
/-- Slab `t` of the interaction matrix: its columns 1024 t … 1024 t + 1023. -/
abbrev bInter (c : Dev nD) (t : Fin cfg0.N) : Vec F S4096x1024 .f32 := iblk m c 3 t
/-- Slab `t` of the entity embeddings: its rows 1024 t … 1024 t + 1023. -/
abbrev bEntity (c : Dev nD) (t : Fin cfg0.N) : Vec F S1024x128 .f32 := iblk m c 4 t

/-! ## What the output block holds after each point -/

/-- The resident output block after point `n`. -/
def outAt (c : Dev nD) : (n : ℕ) → n < cfg0.N → Vec F S4096x128 .f32
  | 0, hn => k0_pay1 (bInter m c ⟨0, hn⟩) (bEntity m c ⟨0, hn⟩)
  | n + 1, hn =>
    if n + 1 = 15 then
      k0_pay3 (bUser m c ⟨n + 1, hn⟩) (bLatent m c ⟨n + 1, hn⟩) (bWeight m c ⟨n + 1, hn⟩)
        (k0_pay2 (bInter m c ⟨n + 1, hn⟩) (bEntity m c ⟨n + 1, hn⟩) (outAt c n (Nat.lt_of_succ_lt hn)))
    else
      k0_pay2 (bInter m c ⟨n + 1, hn⟩) (bEntity m c ⟨n + 1, hn⟩) (outAt c n (Nat.lt_of_succ_lt hn))

/-- At the first point: the slab's product. -/
theorem outAt_first (c : Dev nD) (t : Fin cfg0.N) (h0 : t.val = 0) :
    outAt m c t.val t.isLt = k0_pay1 (bInter m c t) (bEntity m c t) := by
  obtain ⟨n, hn⟩ := t
  cases n with
  | zero => exact rfl
  | succ n => exact absurd h0 (Nat.succ_ne_zero n)

/-- At a later point that is not the last: the previous contents plus the slab's product. -/
theorem outAt_later (c : Dev nD) (t : Fin cfg0.N) (h0 : t.val ≠ 0) (h15 : t.val ≠ 15) :
    outAt m c t.val t.isLt
      = k0_pay2 (bInter m c t) (bEntity m c t) (outAt m c (t.val - 1) (Nat.lt_of_le_of_lt (Nat.sub_le _ _) t.isLt)) := by
  obtain ⟨n, hn⟩ := t
  cases n with
  | zero => exact absurd rfl h0
  | succ n => exact (if_neg h15).trans rfl

/-- At the last point: that sum, scaled by one plus the gate. -/
theorem outAt_last (c : Dev nD) (t : Fin cfg0.N) (h15 : t.val = 15) :
    outAt m c t.val t.isLt
      = k0_pay3 (bUser m c t) (bLatent m c t) (bWeight m c t)
          (k0_pay2 (bInter m c t) (bEntity m c t) (outAt m c (t.val - 1) (Nat.lt_of_le_of_lt (Nat.sub_le _ _) t.isLt))) := by
  obtain ⟨n, hn⟩ := t
  cases n with
  | zero => exact absurd h15 (Nat.zero_ne_add_one 14)
  | succ n => exact (if_pos h15).trans rfl

/-! ## The pipeline's proof data -/

/-- The arrays as the region finds them; after the body at point `t` each input's buffer at its block and the
    output's at `outAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- At every point but the first the output's staging buffer holds what the body left at the point before:
    the block is written back only after the last point, and the window is live and uncut. -/
theorem before5 (c : Dev nD) (t : Fin cfg0.N) (h0 : t.val ≠ 0) (d) :
    (dats m 0 c).before 5 t d = outAt m c (t.val - 1) (Nat.lt_of_le_of_lt (Nat.sub_le _ _) t.isLt) := by
  have hN : t.val < 16 := lt_of_lt_of_eq t.isLt (show cfg0.N = 16 from N_0)
  rw [Dat.before_out_kept _ 5 rfl t h0 (Bool.eq_false_iff.mpr fun h => by have := (flush0_5 _).mp h; dsimp only at this; omega)
    liveAll5 (fun _ _ => rfl)]
  dsimp only [dats]

/-- No window is idle at any point, so each buffer is left at what the body leaves. -/
theorem leaves0 (c : Dev nD) (t : Fin cfg0.N) :
    (dats m 0 c).leavesExact 0 t = owns (c : Thread nD τ) (mUser t) fullShare ((dats m 0 c).after 0 t) := by
  unfold Dat.leavesExact; rw [live0 t]
theorem leaves1 (c : Dev nD) (t : Fin cfg0.N) :
    (dats m 0 c).leavesExact 1 t = owns (c : Thread nD τ) (mLatent t) fullShare ((dats m 0 c).after 1 t) := by
  unfold Dat.leavesExact; rw [live1 t]
theorem leaves2 (c : Dev nD) (t : Fin cfg0.N) :
    (dats m 0 c).leavesExact 2 t = owns (c : Thread nD τ) (mWeight t) fullShare ((dats m 0 c).after 2 t) := by
  unfold Dat.leavesExact; rw [live2 t]
theorem leaves3 (c : Dev nD) (t : Fin cfg0.N) :
    (dats m 0 c).leavesExact 3 t = owns (c : Thread nD τ) (mInter t) fullShare ((dats m 0 c).after 3 t) := by
  unfold Dat.leavesExact; rw [live3 t]
theorem leaves4 (c : Dev nD) (t : Fin cfg0.N) :
    (dats m 0 c).leavesExact 4 t = owns (c : Thread nD τ) (mEntity t) fullShare ((dats m 0 c).after 4 t) := by
  unfold Dat.leavesExact; rw [live4 t]
theorem leaves5 (c : Dev nD) (t : Fin cfg0.N) :
    (dats m 0 c).leavesExact 5 t = owns (c : Thread nD τ) (mOut t) fullShare ((dats m 0 c).after 5 t) := by
  unfold Dat.leavesExact; rw [live5 t]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mUser t) fullShare ((dats m 0 c).before 0 t d))
    ∗ (∃ d, owns (c : Thread nD τ) (mLatent t) fullShare ((dats m 0 c).before 1 t d))
    ∗ (∃ d, owns (c : Thread nD τ) (mWeight t) fullShare ((dats m 0 c).before 2 t d))
    ∗ (∃ d, owns (c : Thread nD τ) (mInter t) fullShare ((dats m 0 c).before 3 t d))
    ∗ (∃ d, owns (c : Thread nD τ) (mEntity t) fullShare ((dats m 0 c).before 4 t d))
    ∗ (∃ d, owns (c : Thread nD τ) (mOut t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point: the inputs' buffers hold their blocks; the point is the first, the last, or in between,
    and in the last two cases the output's buffer holds what the point before left; the case's run applies; the
    invariant passes through unread and the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    leaves0, leaves1, leaves2, leaves3, leaves4, leaves5, after0, after1, after2, after3, after4, after5]
  have hN : t.val < 16 := lt_of_lt_of_eq t.isLt (show cfg0.N = 16 from N_0)
  by_cases h0 : t.val = 0
  · rw [outAt_first m c t h0]
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ ((first_iff t).mpr h0)
      (fun h => by have := (later_iff t).mp h; omega) (fun h => by have := (last_iff t).mp h; omega)
      (bUser m c t) (bLatent m c t) (bWeight m c t) (bInter m c t) (bEntity m c t)) Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · by_cases h15 : t.val = 15
    · rw [outAt_last m c t h15]
      simp only [before5 m c t h0]
      iintro ⟨HΦ, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ (fun h => h0 ((first_iff t).mp h))
        ((later_iff t).mpr (by omega)) ((last_iff t).mpr h15)
        (bUser m c t) (bLatent m c t) (bWeight m c t) (bInter m c t) (bEntity m c t) _) Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · rw [outAt_later m c t h0 h15]
      simp only [before5 m c t h0]
      iintro ⟨HΦ, Ho, ⟨%d0, H0⟩, ⟨%d1, H1⟩, ⟨%d2, H2⟩, ⟨%d3, H3⟩, ⟨%d4, H4⟩, ⟨%d5, H5⟩⟩
      iapply ((runLater c (grid0.coords t) _ _ _ _ _ _ _ _ _ _ _ _ (fun h => h0 ((first_iff t).mp h))
        ((later_iff t).mpr (by omega)) (fun h => h15 ((last_iff t).mp h))
        (bUser m c t) (bLatent m c t) (bWeight m c t) (bInter m c t) (bEntity m c t) _) Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data's write-backs leave there and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.Spec.lean ====
/-
  The mathematics both programs compute, over the extended reals, index by index.

  With U the user embeddings [4096,128], L the latent factors [8,128], W the factor weights [8,128], I the
  interaction matrix [4096,16384] and E the entity embeddings [16384,128]:
    score u f   = Σ_k U[u,k] · L[f,k]                       (users against factors)
    rowMax u    = max(−∞, max_f score u f)
    soft u f    = exp(score u f − rowMax u) / Σ_g exp(score u g − rowMax u)     (a softmax over the 8 factors)
    gate u c    = Σ_f soft u f · W[f,c]
    agg u c     = Σ_i I[u,i] · E[i,c]                        (the user aggregate)
  and the result is  agg u c · (1 + gate u c).  The kernel sums `agg` slab by slab (16 slabs of 1024 entities);
  the reference forms  agg · gate' + agg  with the factors of `gate` commuted.
  The literal −∞ stays the programs' bit pattern: it is the same word on both sides and is never evaluated.
-/
import Idealize.ShloMosaic.PureOps.Ideal
import Idealize.ShloMosaic.Lib.ValueIdx

noncomputable section

open scoped BigOperators

namespace Cert.Spec

open Idealize.ShloMosaic Idealize.ShloMosaic.ValueIdx

abbrev SUsers : Shape := ⟨2, ![4096, 128]⟩
abbrev SFactors : Shape := ⟨2, ![8, 128]⟩
abbrev SEntities : Shape := ⟨2, ![16384, 128]⟩
abbrev SInteract : Shape := ⟨2, ![4096, 16384]⟩
abbrev SSlabI : Shape := ⟨2, ![4096, 1024]⟩
abbrev SSlabE : Shape := ⟨2, ![1024, 128]⟩

/-- −∞, as both programs spell it. -/
abbrev negInf : EReal := Ideal.ofBits .f32 0xFF800000#32

/-- A user's score against a latent factor: the inner product of the two embedding rows. -/
def score (U : SUsers.Idx → EReal) (L : SFactors.Idx → EReal) (u : Fin 4096) (f : Fin 8) : EReal :=
  ∑ k : Fin 128, U (ix2 u k) * L (ix2 f k)

/-- The largest of a user's eight scores (taken from −∞, and once more against −∞, as both programs do). -/
def rowMax (U : SUsers.Idx → EReal) (L : SFactors.Idx → EReal) (u : Fin 4096) : EReal :=
  max negInf ((Finset.univ : Finset (Fin 8)).fold max negInf (fun f => score U L u f))

/-- The shifted exponential of a score. -/
def expo (U : SUsers.Idx → EReal) (L : SFactors.Idx → EReal) (u : Fin 4096) (f : Fin 8) : EReal :=
  Ideal.exp (score U L u f - rowMax U L u)

/-- The softmax over the eight factors. -/
def soft (U : SUsers.Idx → EReal) (L : SFactors.Idx → EReal) (u : Fin 4096) (f : Fin 8) : EReal :=
  Ideal.div (expo U L u f) (∑ g : Fin 8, expo U L u g)

/-- The gate: the softmax-weighted mix of the factor weights (softmax on the left, as the kernel multiplies). -/
def gate (U : SUsers.Idx → EReal) (L W : SFactors.Idx → EReal) (u : Fin 4096) (c : Fin 128) : EReal :=
  ∑ f : Fin 8, soft U L u f * W (ix2 f c)

/-- The same mix with the weight on the left, as the reference multiplies. -/
def gateRef (U : SUsers.Idx → EReal) (L W : SFactors.Idx → EReal) (u : Fin 4096) (c : Fin 128) : EReal :=
  ∑ f : Fin 8, W (ix2 f c) * soft U L u f

/-- The user aggregate: a row of the interaction matrix against a column of the entity embeddings. -/
def agg (I : SInteract.Idx → EReal) (E : SEntities.Idx → EReal) (u : Fin 4096) (c : Fin 128) : EReal :=
  ∑ i : Fin 16384, I (ix2 u i) * E (ix2 i c)

/-- One slab's product at an entry: a [4096,1024] block against a [1024,128] block. -/
def slabDot (X : SSlabI.Idx → EReal) (Y : SSlabE.Idx → EReal) (u : Fin 4096) (c : Fin 128) : EReal :=
  ∑ j : Fin 1024, X (ix2 u j) * Y (ix2 j c)

/-- Entity `j` of slab `k`. -/
def slabIdx (k : Fin 16) (j : Fin 1024) : Fin 16384 := ⟨1024 * k.val + j.val, by omega⟩

/-- Slab `k` of the interaction matrix (its columns 1024k … 1024k+1023). -/
def slabI (I : SInteract.Idx → EReal) (k : Fin 16) : SSlabI.Idx → EReal := fun y => I (ix2 (y 0) (slabIdx k (y 1)))

/-- Slab `k` of the entity embeddings (its rows 1024k … 1024k+1023). -/
def slabE (E : SEntities.Idx → EReal) (k : Fin 16) : SSlabE.Idx → EReal := fun y => E (ix2 (slabIdx k (y 0)) (y 1))

/-- The aggregate over the slabs up to and including slab `n`. -/
def partialAgg (I : SInteract.Idx → EReal) (E : SEntities.Idx → EReal) (n : ℕ) (u : Fin 4096) (c : Fin 128) : EReal :=
  ∑ k ∈ (Finset.univ : Finset (Fin 16)).filter (fun k => k.val ≤ n), slabDot (slabI I k) (slabE E k) u c

end Cert.Spec

end
-- ==== Proof.KernelValue.lean ====
/-
  The kernel's three stored values, read at one entry of the [4096,128] block at the ideal instance:
  the first point stores one slab's product, every later point adds the slab's product to what the block
  held, and the last point multiplies what the block then holds by one plus the gate.
-/
import proofs.«139097_g16647293239300_cont_7to1_181_15_alg».proof.Proof.Spec
import proofs.«139097_g16647293239300_cont_7to1_181_15_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.PayValue

open Idealize.ShloMosaic Idealize.ShloMosaic.ValueIdx Cert.KernelIdeal Cert.KernelIdeal.Gen

/-! ### The product of a [4096,1024] block and a [1024,128] block, read at an entry -/

theorem lhs_slab_0 (i : S4096x128.Idx) (q : dot_S4096x1024_S1024x128_S4096x128_1_0_0_1_n_n.contr.Idx) :
    (dot_S4096x1024_S1024x128_S4096x128_1_0_0_1_n_n.lhsIdx i q 0).val = (i 0).val := by
  unfold DotDims.lhsIdx
  rw [dif_neg (show ¬(0 : Fin S4096x1024.rank) ∈ dot_S4096x1024_S1024x128_S4096x128_1_0_0_1_n_n.lhsBatch by decide), dif_pos (show (0 : Fin S4096x1024.rank) ∈ dot_S4096x1024_S1024x128_S4096x128_1_0_0_1_n_n.lhsNonContracting by decide)]
  rfl
theorem lhs_slab_1 (i : S4096x128.Idx) (q : dot_S4096x1024_S1024x128_S4096x128_1_0_0_1_n_n.contr.Idx) :
    (dot_S4096x1024_S1024x128_S4096x128_1_0_0_1_n_n.lhsIdx i q 1).val = (q ⟨0, by decide⟩).val :=
  dot_S4096x1024_S1024x128_S4096x128_1_0_0_1_n_n.lhsIdx_val_of_single rfl i q
theorem rhs_slab_0 (i : S4096x128.Idx) (q : dot_S4096x1024_S1024x128_S4096x128_1_0_0_1_n_n.contr.Idx) :
    (dot_S4096x1024_S1024x128_S4096x128_1_0_0_1_n_n.rhsIdx i q 0).val = (q ⟨0, by decide⟩).val :=
  dot_S4096x1024_S1024x128_S4096x128_1_0_0_1_n_n.rhsIdx_val_of_single rfl i q
theorem rhs_slab_1 (i : S4096x128.Idx) (q : dot_S4096x1024_S1024x128_S4096x128_1_0_0_1_n_n.contr.Idx) :
    (dot_S4096x1024_S1024x128_S4096x128_1_0_0_1_n_n.rhsIdx i q 1).val = (i 1).val := by
  unfold DotDims.rhsIdx
  rw [dif_neg (show ¬(1 : Fin S1024x128.rank) ∈ dot_S4096x1024_S1024x128_S4096x128_1_0_0_1_n_n.rhsBatch by decide), dif_pos (show (1 : Fin S1024x128.rank) ∈ dot_S4096x1024_S1024x128_S4096x128_1_0_0_1_n_n.rhsNonContracting by decide)]
  rfl

/-- Into the zero splat the product at (u, c) is the sum over the 1024 contracted positions. -/
theorem slab_apply (a : FVec Ideal S4096x1024 .bf16) (b : FVec Ideal S1024x128 .bf16) (u : Fin 4096) (c : Fin 128) :
    matmul dot_S4096x1024_S1024x128_S4096x128_1_0_0_1_n_n none a b (constant (F := Ideal) S4096x128 .f32 0x00000000#32) (ix2 u c)
      = ∑ k : Fin 1024, a (ix2 u k) * b (ix2 k c) := by
  show FloatOps.matmul dot_S4096x1024_S1024x128_S4096x128_1_0_0_1_n_n none a b (constant (F := Ideal) S4096x128 .f32 0x00000000#32) (ix2 u c) = _
  rw [Ideal.matmul_constant_zero_apply, ← Equiv.sum_comp (contrEquiv1 dot_S4096x1024_S1024x128_S4096x128_1_0_0_1_n_n 1024 rfl rfl).symm]
  refine Finset.sum_congr rfl fun k _ => ?_
  have hk := contrEquiv1_symm_val dot_S4096x1024_S1024x128_S4096x128_1_0_0_1_n_n 1024 rfl rfl k
  have el : dot_S4096x1024_S1024x128_S4096x128_1_0_0_1_n_n.lhsIdx (ix2 u c) ((contrEquiv1 dot_S4096x1024_S1024x128_S4096x128_1_0_0_1_n_n 1024 rfl rfl).symm k) = ix2 u k := funext fun x => Fin.ext (by
    match x with
    | ⟨0, _⟩ => exact lhs_slab_0 _ _
    | ⟨1, _⟩ => exact (lhs_slab_1 _ _).trans hk)
  have er : dot_S4096x1024_S1024x128_S4096x128_1_0_0_1_n_n.rhsIdx (ix2 u c) ((contrEquiv1 dot_S4096x1024_S1024x128_S4096x128_1_0_0_1_n_n 1024 rfl rfl).symm k) = ix2 k c := funext fun x => Fin.ext (by
    match x with
    | ⟨0, _⟩ => exact (rhs_slab_0 _ _).trans hk
    | ⟨1, _⟩ => exact rhs_slab_1 _ _)
  rw [el, er]

/-! ### The product of a [4096,128] block and a [128,8] block, read at an entry -/

theorem lhs_score_0 (i : S4096x8.Idx) (q : dot_S4096x128_S128x8_S4096x8_1_0_0_1_n_n.contr.Idx) :
    (dot_S4096x128_S128x8_S4096x8_1_0_0_1_n_n.lhsIdx i q 0).val = (i 0).val := by
  unfold DotDims.lhsIdx
  rw [dif_neg (show ¬(0 : Fin S4096x128.rank) ∈ dot_S4096x128_S128x8_S4096x8_1_0_0_1_n_n.lhsBatch by decide), dif_pos (show (0 : Fin S4096x128.rank) ∈ dot_S4096x128_S128x8_S4096x8_1_0_0_1_n_n.lhsNonContracting by decide)]
  rfl
theorem lhs_score_1 (i : S4096x8.Idx) (q : dot_S4096x128_S128x8_S4096x8_1_0_0_1_n_n.contr.Idx) :
    (dot_S4096x128_S128x8_S4096x8_1_0_0_1_n_n.lhsIdx i q 1).val = (q ⟨0, by decide⟩).val :=
  dot_S4096x128_S128x8_S4096x8_1_0_0_1_n_n.lhsIdx_val_of_single rfl i q
theorem rhs_score_0 (i : S4096x8.Idx) (q : dot_S4096x128_S128x8_S4096x8_1_0_0_1_n_n.contr.Idx) :
    (dot_S4096x128_S128x8_S4096x8_1_0_0_1_n_n.rhsIdx i q 0).val = (q ⟨0, by decide⟩).val :=
  dot_S4096x128_S128x8_S4096x8_1_0_0_1_n_n.rhsIdx_val_of_single rfl i q
theorem rhs_score_1 (i : S4096x8.Idx) (q : dot_S4096x128_S128x8_S4096x8_1_0_0_1_n_n.contr.Idx) :
    (dot_S4096x128_S128x8_S4096x8_1_0_0_1_n_n.rhsIdx i q 1).val = (i 1).val := by
  unfold DotDims.rhsIdx
  rw [dif_neg (show ¬(1 : Fin S128x8.rank) ∈ dot_S4096x128_S128x8_S4096x8_1_0_0_1_n_n.rhsBatch by decide), dif_pos (show (1 : Fin S128x8.rank) ∈ dot_S4096x128_S128x8_S4096x8_1_0_0_1_n_n.rhsNonContracting by decide)]
  rfl

/-- Into the zero splat the product at (u, c) is the sum over the 128 contracted positions. -/
theorem score_apply (a : FVec Ideal S4096x128 .f32) (b : FVec Ideal S128x8 .f32) (u : Fin 4096) (c : Fin 8) :
    matmul dot_S4096x128_S128x8_S4096x8_1_0_0_1_n_n none a b (constant (F := Ideal) S4096x8 .f32 0x00000000#32) (ix2 u c)
      = ∑ k : Fin 128, a (ix2 u k) * b (ix2 k c) := by
  show FloatOps.matmul dot_S4096x128_S128x8_S4096x8_1_0_0_1_n_n none a b (constant (F := Ideal) S4096x8 .f32 0x00000000#32) (ix2 u c) = _
  rw [Ideal.matmul_constant_zero_apply, ← Equiv.sum_comp (contrEquiv1 dot_S4096x128_S128x8_S4096x8_1_0_0_1_n_n 128 rfl rfl).symm]
  refine Finset.sum_congr rfl fun k _ => ?_
  have hk := contrEquiv1_symm_val dot_S4096x128_S128x8_S4096x8_1_0_0_1_n_n 128 rfl rfl k
  have el : dot_S4096x128_S128x8_S4096x8_1_0_0_1_n_n.lhsIdx (ix2 u c) ((contrEquiv1 dot_S4096x128_S128x8_S4096x8_1_0_0_1_n_n 128 rfl rfl).symm k) = ix2 u k := funext fun x => Fin.ext (by
    match x with
    | ⟨0, _⟩ => exact lhs_score_0 _ _
    | ⟨1, _⟩ => exact (lhs_score_1 _ _).trans hk)
  have er : dot_S4096x128_S128x8_S4096x8_1_0_0_1_n_n.rhsIdx (ix2 u c) ((contrEquiv1 dot_S4096x128_S128x8_S4096x8_1_0_0_1_n_n 128 rfl rfl).symm k) = ix2 k c := funext fun x => Fin.ext (by
    match x with
    | ⟨0, _⟩ => exact (rhs_score_0 _ _).trans hk
    | ⟨1, _⟩ => exact rhs_score_1 _ _)
  rw [el, er]

/-! ### The product of a [4096,8] block and a [8,128] block, read at an entry -/

theorem lhs_mix_0 (i : S4096x128.Idx) (q : dot_S4096x8_S8x128_S4096x128_1_0_0_1_n_n.contr.Idx) :
    (dot_S4096x8_S8x128_S4096x128_1_0_0_1_n_n.lhsIdx i q 0).val = (i 0).val := by
  unfold DotDims.lhsIdx
  rw [dif_neg (show ¬(0 : Fin S4096x8.rank) ∈ dot_S4096x8_S8x128_S4096x128_1_0_0_1_n_n.lhsBatch by decide), dif_pos (show (0 : Fin S4096x8.rank) ∈ dot_S4096x8_S8x128_S4096x128_1_0_0_1_n_n.lhsNonContracting by decide)]
  rfl
theorem lhs_mix_1 (i : S4096x128.Idx) (q : dot_S4096x8_S8x128_S4096x128_1_0_0_1_n_n.contr.Idx) :
    (dot_S4096x8_S8x128_S4096x128_1_0_0_1_n_n.lhsIdx i q 1).val = (q ⟨0, by decide⟩).val :=
  dot_S4096x8_S8x128_S4096x128_1_0_0_1_n_n.lhsIdx_val_of_single rfl i q
theorem rhs_mix_0 (i : S4096x128.Idx) (q : dot_S4096x8_S8x128_S4096x128_1_0_0_1_n_n.contr.Idx) :
    (dot_S4096x8_S8x128_S4096x128_1_0_0_1_n_n.rhsIdx i q 0).val = (q ⟨0, by decide⟩).val :=
  dot_S4096x8_S8x128_S4096x128_1_0_0_1_n_n.rhsIdx_val_of_single rfl i q
theorem rhs_mix_1 (i : S4096x128.Idx) (q : dot_S4096x8_S8x128_S4096x128_1_0_0_1_n_n.contr.Idx) :
    (dot_S4096x8_S8x128_S4096x128_1_0_0_1_n_n.rhsIdx i q 1).val = (i 1).val := by
  unfold DotDims.rhsIdx
  rw [dif_neg (show ¬(1 : Fin S8x128.rank) ∈ dot_S4096x8_S8x128_S4096x128_1_0_0_1_n_n.rhsBatch by decide), dif_pos (show (1 : Fin S8x128.rank) ∈ dot_S4096x8_S8x128_S4096x128_1_0_0_1_n_n.rhsNonContracting by decide)]
  rfl

/-- Into the zero splat the product at (u, c) is the sum over the 8 contracted positions. -/
theorem mix_apply (a : FVec Ideal S4096x8 .f32) (b : FVec Ideal S8x128 .f32) (u : Fin 4096) (c : Fin 128) :
    matmul dot_S4096x8_S8x128_S4096x128_1_0_0_1_n_n none a b (constant (F := Ideal) S4096x128 .f32 0x00000000#32) (ix2 u c)
      = ∑ k : Fin 8, a (ix2 u k) * b (ix2 k c) := by
  show FloatOps.matmul dot_S4096x8_S8x128_S4096x128_1_0_0_1_n_n none a b (constant (F := Ideal) S4096x128 .f32 0x00000000#32) (ix2 u c) = _
  rw [Ideal.matmul_constant_zero_apply, ← Equiv.sum_comp (contrEquiv1 dot_S4096x8_S8x128_S4096x128_1_0_0_1_n_n 8 rfl rfl).symm]
  refine Finset.sum_congr rfl fun k _ => ?_
  have hk := contrEquiv1_symm_val dot_S4096x8_S8x128_S4096x128_1_0_0_1_n_n 8 rfl rfl k
  have el : dot_S4096x8_S8x128_S4096x128_1_0_0_1_n_n.lhsIdx (ix2 u c) ((contrEquiv1 dot_S4096x8_S8x128_S4096x128_1_0_0_1_n_n 8 rfl rfl).symm k) = ix2 u k := funext fun x => Fin.ext (by
    match x with
    | ⟨0, _⟩ => exact lhs_mix_0 _ _
    | ⟨1, _⟩ => exact (lhs_mix_1 _ _).trans hk)
  have er : dot_S4096x8_S8x128_S4096x128_1_0_0_1_n_n.rhsIdx (ix2 u c) ((contrEquiv1 dot_S4096x8_S8x128_S4096x128_1_0_0_1_n_n 8 rfl rfl).symm k) = ix2 k c := funext fun x => Fin.ext (by
    match x with
    | ⟨0, _⟩ => exact (rhs_mix_0 _ _).trans hk
    | ⟨1, _⟩ => exact rhs_mix_1 _ _)
  rw [el, er]

/-! ### The keepdims column forms -/

section Column
variable {α : Type}

/-- An `[a]` array cast to `[a, 1]` reads, at `(i, z)`, the operand at `i`, whatever the unit coordinate `z`. -/
theorem shapeCast_a_a1_apply {a : ℕ} (x : (⟨1, ![a]⟩ : Shape).Idx → α) (h : (⟨1, ![a]⟩ : Shape).ShapeCasts ⟨2, ![a, 1]⟩)
    (i : Fin a) (z : Fin 1) : shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The two together: a column of row values spread over the row. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Column

/-! ### The two row reductions over the eight factors -/

/-- The index of row `u` with the factor `f` put back on the reduced axis is `(u, f)`. -/
theorem lift_row (u : Fin 4096) (f : Fin 8) : reduces_S4096x8_S4096.lift (ix1 u) f = ix2 u f :=
  funext fun x => Fin.ext (by
    match x with
    | ⟨0, _⟩ => rfl
    | ⟨1, _⟩ => rfl)

/-- The row maximum from −∞ over the eight factors. -/
theorem rowMax_apply (s : FVec Ideal S4096x8 .f32) (hφ : FKind.Formats .f32)
    (hacc : (0xFF800000#32 : BitVec 32) = FKind.maximumf.neutral .f32 hφ) (u : Fin 4096) :
    multiReduction .maximumf [1] S4096 s 0xFF800000#32 reduces_S4096x8_S4096 hφ hacc (ix1 u)
      = (Finset.univ : Finset (Fin 8)).fold max Cert.Spec.negInf (fun f => s (ix2 u f)) := by
  refine (Ideal.multiReduction_maximumf_single s 0xFF800000#32 reduces_S4096x8_S4096 hφ hacc (ix1 u)).trans ?_
  show (Finset.univ : Finset (Fin 8)).fold max Cert.Spec.negInf (fun f => s (reduces_S4096x8_S4096.lift (ix1 u) f)) = _
  exact congrArg (fun g => (Finset.univ : Finset (Fin 8)).fold max Cert.Spec.negInf g) (funext fun f => congrArg s (lift_row u f))

/-- The row sum over the eight factors. -/
theorem rowSum_apply (e : FVec Ideal S4096x8 .f32) (hφ : FKind.Formats .f32)
    (hacc : (0x00000000#32 : BitVec 32) = FKind.add.neutral .f32 hφ) (u : Fin 4096) :
    multiReduction .add [1] S4096 e 0x00000000#32 reduces_S4096x8_S4096 hφ hacc (ix1 u) = ∑ f : Fin 8, e (ix2 u f) := by
  refine (Ideal.multiReduction_add_single e 0x00000000#32 reduces_S4096x8_S4096 hφ hacc (ix1 u)).trans ?_
  show ∑ f : Fin 8, e (reduces_S4096x8_S4096.lift (ix1 u) f) = _
  exact Finset.sum_congr rfl fun f _ => congrArg e (lift_row u f)

/-! ### The last point's chain, operation by operation -/

/-- The scores: the user block against the transposed factor block. -/
def scoresV (x0 : FVec Ideal S4096x128 .f32) (x1 : FVec Ideal S8x128 .f32) : FVec Ideal S4096x8 .f32 :=
  matmul dot_S4096x128_S128x8_S4096x8_1_0_0_1_n_n none x0 (transpose S128x8 [1, 0] x1 transposes_S8x128_p1_0_S128x8)
    (constant (F := Ideal) S4096x8 .f32 0x00000000#32)

theorem scoresV_apply (x0 : FVec Ideal S4096x128 .f32) (x1 : FVec Ideal S8x128 .f32) (u : Fin 4096) (f : Fin 8) :
    scoresV x0 x1 (ix2 u f) = Cert.Spec.score x0 x1 u f := by
  unfold scoresV
  refine (score_apply x0 _ u f).trans ?_
  exact Finset.sum_congr rfl fun k _ =>
    congrArg (x0 (ix2 u k) * ·) (transpose_ix2_apply x1 transposes_S8x128_p1_0_S128x8 k f)

/-- The row maxima: the fold of max from −∞ over the eight scores, then once more against −∞. -/
def rowMaxV (x0 : FVec Ideal S4096x128 .f32) (x1 : FVec Ideal S8x128 .f32) : FVec Ideal S4096 .f32 :=
  maximumf (broadcast S4096 (Scalar.ofBits (F := Ideal) .f32 0xFF800000#32))
    (multiReduction .maximumf [1] S4096 (scoresV x0 x1) 0xFF800000#32 reduces_S4096x8_S4096 (.inl rfl) rfl)

theorem rowMaxV_apply (x0 : FVec Ideal S4096x128 .f32) (x1 : FVec Ideal S8x128 .f32) (u : Fin 4096) :
    rowMaxV x0 x1 (ix1 u) = Cert.Spec.rowMax x0 x1 u := by
  unfold rowMaxV Cert.Spec.rowMax
  show max Cert.Spec.negInf (multiReduction .maximumf [1] S4096 (scoresV x0 x1) 0xFF800000#32 reduces_S4096x8_S4096
    (.inl rfl) rfl (ix1 u)) = _
  refine congrArg (max Cert.Spec.negInf) ((rowMax_apply (scoresV x0 x1) _ _ u).trans ?_)
  exact congrArg (fun g => (Finset.univ : Finset (Fin 8)).fold max Cert.Spec.negInf g)
    (funext fun f => scoresV_apply x0 x1 u f)

/-- The shifted exponentials: each score less its row's maximum, exponentiated. -/
def expoV (x0 : FVec Ideal S4096x128 .f32) (x1 : FVec Ideal S8x128 .f32) : FVec Ideal S4096x8 .f32 :=
  exp (subf (scoresV x0 x1)
    (broadcastTo S4096x8 (shapeCast S4096x1 (rowMaxV x0 x1) shapeCasts_S4096_S4096x1) broadcasts_S4096x1_S4096x8))

theorem expoV_apply (x0 : FVec Ideal S4096x128 .f32) (x1 : FVec Ideal S8x128 .f32) (u : Fin 4096) (f : Fin 8) :
    expoV x0 x1 (ix2 u f) = Cert.Spec.expo x0 x1 u f := by
  unfold expoV Cert.Spec.expo
  show Ideal.exp (scoresV x0 x1 (ix2 u f)
    - broadcastTo S4096x8 (shapeCast S4096x1 (rowMaxV x0 x1) shapeCasts_S4096_S4096x1) broadcasts_S4096x1_S4096x8 (ix2 u f)) = _
  rw [column_apply, scoresV_apply, rowMaxV_apply]

/-- The row sums of the shifted exponentials. -/
def rowSumV (x0 : FVec Ideal S4096x128 .f32) (x1 : FVec Ideal S8x128 .f32) : FVec Ideal S4096 .f32 :=
  multiReduction .add [1] S4096 (expoV x0 x1) 0x00000000#32 reduces_S4096x8_S4096 (.inl rfl) rfl

theorem rowSumV_apply (x0 : FVec Ideal S4096x128 .f32) (x1 : FVec Ideal S8x128 .f32) (u : Fin 4096) :
    rowSumV x0 x1 (ix1 u) = ∑ g : Fin 8, Cert.Spec.expo x0 x1 u g := by
  unfold rowSumV
  refine (rowSum_apply (expoV x0 x1) _ _ u).trans ?_
  exact Finset.sum_congr rfl fun g _ => expoV_apply x0 x1 u g

/-- The softmax: each shifted exponential over its row's sum. -/
def softV (x0 : FVec Ideal S4096x128 .f32) (x1 : FVec Ideal S8x128 .f32) : FVec Ideal S4096x8 .f32 :=
  divf (expoV x0 x1)
    (broadcastTo S4096x8 (shapeCast S4096x1 (rowSumV x0 x1) shapeCasts_S4096_S4096x1) broadcasts_S4096x1_S4096x8)

theorem softV_apply (x0 : FVec Ideal S4096x128 .f32) (x1 : FVec Ideal S8x128 .f32) (u : Fin 4096) (f : Fin 8) :
    softV x0 x1 (ix2 u f) = Cert.Spec.soft x0 x1 u f := by
  unfold softV Cert.Spec.soft
  show Ideal.div (expoV x0 x1 (ix2 u f))
    (broadcastTo S4096x8 (shapeCast S4096x1 (rowSumV x0 x1) shapeCasts_S4096_S4096x1) broadcasts_S4096x1_S4096x8 (ix2 u f)) = _
  rw [column_apply, expoV_apply, rowSumV_apply]

/-- The gate: the softmax against the weight block. -/
def gateV (x0 : FVec Ideal S4096x128 .f32) (x1 x2 : FVec Ideal S8x128 .f32) : FVec Ideal S4096x128 .f32 :=
  matmul dot_S4096x8_S8x128_S4096x128_1_0_0_1_n_n none (softV x0 x1) x2 (constant (F := Ideal) S4096x128 .f32 0x00000000#32)

theorem gateV_apply (x0 : FVec Ideal S4096x128 .f32) (x1 x2 : FVec Ideal S8x128 .f32) (u : Fin 4096) (c : Fin 128) :
    gateV x0 x1 x2 (ix2 u c) = Cert.Spec.gate x0 x1 x2 u c := by
  unfold gateV Cert.Spec.gate
  refine (mix_apply (softV x0 x1) x2 u c).trans ?_
  exact Finset.sum_congr rfl fun f _ => congrArg (· * x2 (ix2 f c)) (softV_apply x0 x1 u f)

/-- The word 0x3F800000 is the number one. -/
theorem one_f32 : Ideal.ofBits .f32 0x3F800000#32 = 1 := IdealRules.sign_bit.ideal_onePat .f32

/-- The last payload is the block times (the splat of one plus the gate), by unfolding. -/
theorem pay3_eq (x0 : FVec Ideal S4096x128 .f32) (x1 x2 : FVec Ideal S8x128 .f32) (v : FVec Ideal S4096x128 .f32) :
    k0_pay3 (F := Ideal) x0 x1 x2 v
      = mulf (shapeCast S4096x128 v shapeCasts_S4096x128_S4096x128)
          (addf (broadcast S4096x128 (Scalar.ofBits (F := Ideal) .f32 0x3F800000#32)) (gateV x0 x1 x2)) := rfl

/-! ### The three stored values -/

/-- The slab product the kernel's first store writes: at (u, c) the sum over the slab's 1024 entities. -/
theorem pay1_apply (x3 : FVec Ideal S4096x1024 .f32) (x4 : FVec Ideal S1024x128 .f32) (u : Fin 4096) (c : Fin 128) :
    k0_pay1 (F := Ideal) x3 x4 (ix2 u c) = Cert.Spec.slabDot x3 x4 u c := by
  unfold k0_pay1
  exact slab_apply _ _ u c

/-- The accumulating store: what the block held plus the slab's product. -/
theorem pay2_apply (x3 : FVec Ideal S4096x1024 .f32) (x4 : FVec Ideal S1024x128 .f32) (xo : FVec Ideal S4096x128 .f32)
    (u : Fin 4096) (c : Fin 128) :
    k0_pay2 (F := Ideal) x3 x4 xo (ix2 u c) = xo (ix2 u c) + Cert.Spec.slabDot x3 x4 u c := by
  unfold k0_pay2
  show shapeCast S4096x128 xo shapeCasts_S4096x128_S4096x128 (ix2 u c) + k0_pay1 (F := Ideal) x3 x4 (ix2 u c) = _
  rw [shapeCast_self, pay1_apply]

/-- The last point's store: what the block holds times one plus the gate of the user, factor and weight blocks. -/
theorem pay3_apply (x0 : FVec Ideal S4096x128 .f32) (x1 x2 : FVec Ideal S8x128 .f32) (v : FVec Ideal S4096x128 .f32)
    (u : Fin 4096) (c : Fin 128) :
    k0_pay3 (F := Ideal) x0 x1 x2 v (ix2 u c) = v (ix2 u c) * (1 + Cert.Spec.gate x0 x1 x2 u c) := by
  rw [pay3_eq]
  show shapeCast S4096x128 v shapeCasts_S4096x128_S4096x128 (ix2 u c)
    * (Ideal.ofBits .f32 0x3F800000#32 + gateV x0 x1 x2 (ix2 u c)) = _
  rw [shapeCast_self, one_f32, gateV_apply]

end Cert.KernelIdeal.PayValue

end
-- ==== Proof.Algebra.lean ====
/-
  The algebra that joins the two programs: the gate with its factors commuted, the aggregate as a sum over
  slabs, and the one law that needs a finite aggregate — a·(1 + g) = a·g + a for a real a and any extended real g.
-/
import proofs.«139097_g16647293239300_cont_7to1_181_15_alg».proof.Proof.Spec
import Mathlib.Data.EReal.Basic
import Mathlib.Data.EReal.Operations
import Mathlib.Algebra.BigOperators.Fin

noncomputable section

open scoped BigOperators

namespace Cert.Spec

open Idealize.ShloMosaic Idealize.ShloMosaic.ValueIdx

/-- The coercion ℝ → EReal is additive, so it carries a finite sum of reals to the sum of the coercions. -/
theorem coe_sum_real {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The pair (slab k, entity j of the slab) ↦ entity 1024k + j is a bijection Fin 16 × Fin 1024 ≃ Fin 16384;
    its inverse is i ↦ (i / 1024, i % 1024). -/
def slabEquiv : Fin 16 × Fin 1024 ≃ Fin 16384 where
  toFun p := slabIdx p.1 p.2
  invFun i := (⟨i.val / 1024, by omega⟩, ⟨i.val % 1024, by omega⟩)
  left_inv p := by
    rcases p with ⟨k, j⟩
    apply Prod.ext
    · apply Fin.ext
      show (1024 * k.val + j.val) / 1024 = k.val
      omega
    · apply Fin.ext
      show (1024 * k.val + j.val) % 1024 = j.val
      omega
  right_inv i := by
    apply Fin.ext
    show 1024 * (i.val / 1024) + i.val % 1024 = i.val
    omega

/-- Multiplication on the extended reals commutes, term by term. -/
theorem gateRef_eq (U : SUsers.Idx → EReal) (L W : SFactors.Idx → EReal) (u : Fin 4096) (c : Fin 128) :
    gateRef U L W u c = gate U L W u c := by
  unfold gateRef gate
  exact Finset.sum_congr rfl (fun f _ => mul_comm _ _)

/-- For a REAL a and any extended real g: a·(1 + g) = a·g + a (at g = ±∞ both sides are the same infinity,
    or both are 0 + a... when a = 0). -/
theorem scale_law (a : ℝ) (g : EReal) : (a : EReal) * (1 + g) = (a : EReal) * g + (a : EReal) := by
  induction g using EReal.rec with
  | bot =>
    -- 1 + ⊥ = ⊥; then a·⊥ is ⊤, 0 or ⊥ according to the sign of a, and adding the real a does not move it
    rw [EReal.add_bot]
    rcases lt_trichotomy a 0 with h | h | h
    · rw [EReal.coe_mul_bot_of_neg h, EReal.top_add_coe]
    · subst h
      rw [EReal.coe_zero, zero_mul, zero_add]
    · rw [EReal.coe_mul_bot_of_pos h, EReal.bot_add]
  | coe r =>
    -- all three are real: the law is distributivity in ℝ
    rw [← EReal.coe_one, ← EReal.coe_add, ← EReal.coe_mul, ← EReal.coe_mul, ← EReal.coe_add]
    congr 1
    ring
  | top =>
    -- 1 + ⊤ = ⊤; then a·⊤ is ⊥, 0 or ⊤ according to the sign of a, and adding the real a does not move it
    have h1 : (1 : EReal) + ⊤ = ⊤ := by
      rw [← EReal.coe_one]
      exact EReal.coe_add_top 1
    rw [h1]
    rcases lt_trichotomy a 0 with h | h | h
    · rw [EReal.coe_mul_top_of_neg h, EReal.bot_add]
    · subst h
      rw [EReal.coe_zero, zero_mul, zero_add]
    · rw [EReal.coe_mul_top_of_pos h, EReal.top_add_coe]

/-- A finite sum of products of reals is a real. -/
theorem agg_real (I : SInteract.Idx → EReal) (E : SEntities.Idx → EReal)
    (hI : ∀ i, ∃ r : ℝ, I i = (r : EReal)) (hE : ∀ i, ∃ r : ℝ, E i = (r : EReal)) (u : Fin 4096) (c : Fin 128) :
    ∃ a : ℝ, agg I E u c = (a : EReal) := by
  choose fI hfI using hI
  choose fE hfE using hE
  refine ⟨∑ i : Fin 16384, fI (ix2 u i) * fE (ix2 i c), ?_⟩
  unfold agg
  rw [coe_sum_real]
  exact Finset.sum_congr rfl (fun i _ => by rw [hfI, hfE, EReal.coe_mul])

/-- The first slab alone. -/
theorem partialAgg_zero (I : SInteract.Idx → EReal) (E : SEntities.Idx → EReal) (u : Fin 4096) (c : Fin 128) :
    partialAgg I E 0 u c = slabDot (slabI I 0) (slabE E 0) u c := by
  unfold partialAgg
  -- the only slab with index ≤ 0 is slab 0
  have h : (Finset.univ : Finset (Fin 16)).filter (fun k => k.val ≤ 0) = {0} := by
    ext k
    simp only [Finset.mem_filter, Finset.mem_univ, true_and, Finset.mem_singleton, Fin.ext_iff, Fin.val_zero]
    omega
  rw [h, Finset.sum_singleton]

/-- One more slab. -/
theorem partialAgg_succ (I : SInteract.Idx → EReal) (E : SEntities.Idx → EReal) (n : ℕ) (hn : n + 1 < 16)
    (u : Fin 4096) (c : Fin 128) :
    partialAgg I E (n + 1) u c = partialAgg I E n u c + slabDot (slabI I ⟨n + 1, hn⟩) (slabE E ⟨n + 1, hn⟩) u c := by
  unfold partialAgg
  -- the slabs with index ≤ n + 1 are the slabs with index ≤ n together with slab n + 1, which is not among them
  have h : (Finset.univ : Finset (Fin 16)).filter (fun k => k.val ≤ n + 1) =
      insert (⟨n + 1, hn⟩ : Fin 16) ((Finset.univ : Finset (Fin 16)).filter (fun k => k.val ≤ n)) := by
    ext k
    simp only [Finset.mem_filter, Finset.mem_univ, true_and, Finset.mem_insert, Fin.ext_iff]
    omega
  have hnot : (⟨n + 1, hn⟩ : Fin 16) ∉ (Finset.univ : Finset (Fin 16)).filter (fun k => k.val ≤ n) := by
    simp only [Finset.mem_filter, Finset.mem_univ, true_and]
    omega
  rw [h, Finset.sum_insert hnot, add_comm]

/-- All sixteen slabs are the whole aggregate: 16384 = 16 · 1024, entity 1024k + j is entity j of slab k. -/
theorem partialAgg_last (I : SInteract.Idx → EReal) (E : SEntities.Idx → EReal) (u : Fin 4096) (c : Fin 128) :
    partialAgg I E 15 u c = agg I E u c := by
  unfold partialAgg agg
  -- every slab has index ≤ 15
  have h : (Finset.univ : Finset (Fin 16)).filter (fun k => k.val ≤ 15) = Finset.univ := by
    ext k
    simp only [Finset.mem_filter, Finset.mem_univ, true_and, iff_true]
    omega
  rw [h]
  -- slab k's product at (u, c) is the sum over its entities j of I[u, 1024k + j] · E[1024k + j, c]
  have hslab : ∀ k : Fin 16, slabDot (slabI I k) (slabE E k) u c =
      ∑ j : Fin 1024, I (ix2 u (slabIdx k j)) * E (ix2 (slabIdx k j) c) := fun _ => rfl
  rw [Finset.sum_congr rfl (fun k _ => hslab k)]
  -- the double sum over (k, j) is a sum over pairs, and the pairs are the entities through (k, j) ↦ 1024k + j
  rw [← Fintype.sum_prod_type' (fun (k : Fin 16) (j : Fin 1024) => I (ix2 u (slabIdx k j)) * E (ix2 (slabIdx k j) c))]
  exact Fintype.sum_equiv slabEquiv _ _ (fun _ => rfl)

end Cert.Spec

end
-- ==== Proof.KernelIdealValue.lean ====
/-
  What the idealized kernel leaves in its result array, as one function of the argument arrays.

  Slab t of the interaction matrix (columns 1024 t …) and of the entity embeddings (rows 1024 t …) are the blocks
  the pipeline stages at point t; the other three inputs are staged whole. So after point n < 15 the resident
  block holds, entry by entry, the aggregate over the slabs 0 … n, and after point 15 the whole aggregate times one
  plus the gate. The block is the whole [4096,128] array and is written back once, after point 15, so that is
  what the result array ends holding.
-/
import proofs.«139097_g16647293239300_cont_7to1_181_15_alg».proof.Proof.KernelIdealFrame
import proofs.«139097_g16647293239300_cont_7to1_181_15_alg».proof.Proof.KernelValue
import proofs.«139097_g16647293239300_cont_7to1_181_15_alg».proof.Proof.Algebra

set_option maxRecDepth 16384

noncomputable section

open scoped BigOperators

namespace Cert.KernelIdeal.Resident

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Body

variable (m : (ℓ : Loc nD τ sig) → Buf (Elt Ideal) ℓ) (ρ : Dev nD → PrngReg)

/-! ## The argument arrays, at their literal types -/

abbrev aEntity (c : Dev nD) : FVec Ideal S16384x128 .f32 := V m c main_arg0
abbrev aUser (c : Dev nD) : FVec Ideal S4096x128 .f32 := V m c main_arg1
abbrev aLatent (c : Dev nD) : FVec Ideal S8x128 .f32 := V m c main_arg2
abbrev aWeight (c : Dev nD) : FVec Ideal S8x128 .f32 := V m c main_arg3
abbrev aInter (c : Dev nD) : FVec Ideal S4096x16384 .f32 := V m c main_arg4

/-- A grid point as a slab number. -/
def slabOf (t : Fin cfg0.N) : Fin 16 := ⟨t.val, lt_of_lt_of_eq t.isLt N_0⟩

/-- The printed index maps over the grid: the three small inputs and the output sit at block (0,0); the interaction
    matrix's block moves along its columns with the point, the entity embeddings' along its rows. -/
theorem idxFacts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

/-! ## The blocks as pieces of the arrays -/

/-- Window 0's block is its whole array at every point. -/
theorem bUser_eq (c : Dev nD) (t : Fin cfg0.N) : bUser m c t = aUser m c := by
  funext y
  show V m c main_arg1 (((cfg0.win 0).blk t).view.emb y) = V m c main_arg1 y
  refine congrArg _ ?_
  funext a; apply Fin.ext
  obtain ⟨e00, e01, e10, e11, e20, e21, e30, e31, e40, e41, e50, e51⟩ := idxFacts t
  match a with
  | ⟨0, _⟩ => show win0_0.index t (0 : Fin 2) * 4096 + 1 * (y 0).val = (y 0).val; omega
  | ⟨1, _⟩ => show win0_0.index t (1 : Fin 2) * 128 + 1 * (y 1).val = (y 1).val; omega

/-- Window 1's block is its whole array at every point. -/
theorem bLatent_eq (c : Dev nD) (t : Fin cfg0.N) : bLatent m c t = aLatent m c := by
  funext y
  show V m c main_arg2 (((cfg0.win 1).blk t).view.emb y) = V m c main_arg2 y
  refine congrArg _ ?_
  funext a; apply Fin.ext
  obtain ⟨e00, e01, e10, e11, e20, e21, e30, e31, e40, e41, e50, e51⟩ := idxFacts t
  match a with
  | ⟨0, _⟩ => show win0_1.index t (0 : Fin 2) * 8 + 1 * (y 0).val = (y 0).val; omega
  | ⟨1, _⟩ => show win0_1.index t (1 : Fin 2) * 128 + 1 * (y 1).val = (y 1).val; omega

/-- Window 2's block is its whole array at every point. -/
theorem bWeight_eq (c : Dev nD) (t : Fin cfg0.N) : bWeight m c t = aWeight m c := by
  funext y
  show V m c main_arg3 (((cfg0.win 2).blk t).view.emb y) = V m c main_arg3 y
  refine congrArg _ ?_
  funext a; apply Fin.ext
  obtain ⟨e00, e01, e10, e11, e20, e21, e30, e31, e40, e41, e50, e51⟩ := idxFacts t
  match a with
  | ⟨0, _⟩ => show win0_2.index t (0 : Fin 2) * 8 + 1 * (y 0).val = (y 0).val; omega
  | ⟨1, _⟩ => show win0_2.index t (1 : Fin 2) * 128 + 1 * (y 1).val = (y 1).val; omega

/-- The interaction matrix's block at point t is its slab t: entry (u, j) is column 1024 t + j of row u. -/
theorem bInter_eq (c : Dev nD) (t : Fin cfg0.N) : bInter m c t = Cert.Spec.slabI (aInter m c) (slabOf t) := by
  funext y
  show V m c main_arg4 (((cfg0.win 3).blk t).view.emb y) = V m c main_arg4 (ix2 (y 0) (Cert.Spec.slabIdx (slabOf t) (y 1)))
  refine congrArg _ ?_
  funext a; apply Fin.ext
  obtain ⟨e00, e01, e10, e11, e20, e21, e30, e31, e40, e41, e50, e51⟩ := idxFacts t
  match a with
  | ⟨0, _⟩ => show win0_3.index t (0 : Fin 2) * 4096 + 1 * (y 0).val = (y 0).val; omega
  | ⟨1, _⟩ => show win0_3.index t (1 : Fin 2) * 1024 + 1 * (y 1).val = 1024 * t.val + (y 1).val; omega

/-- The entity embeddings' block at point t is its slab t: entry (j, c) is row 1024 t + j. -/
theorem bEntity_eq (c : Dev nD) (t : Fin cfg0.N) : bEntity m c t = Cert.Spec.slabE (aEntity m c) (slabOf t) := by
  funext y
  show V m c main_arg0 (((cfg0.win 4).blk t).view.emb y) = V m c main_arg0 (ix2 (Cert.Spec.slabIdx (slabOf t) (y 0)) (y 1))
  refine congrArg _ ?_
  funext a; apply Fin.ext
  obtain ⟨e00, e01, e10, e11, e20, e21, e30, e31, e40, e41, e50, e51⟩ := idxFacts t
  match a with
  | ⟨0, _⟩ => show win0_4.index t (0 : Fin 2) * 1024 + 1 * (y 0).val = 1024 * t.val + (y 0).val; omega
  | ⟨1, _⟩ => show win0_4.index t (1 : Fin 2) * 128 + 1 * (y 1).val = (y 1).val; omega

/-! ## The resident block, point by point -/

/-- After point n < 15 the block holds the aggregate over the slabs 0 … n. -/
theorem outAt_partial (c : Dev nD) (n : ℕ) (hn : n < cfg0.N) (h15 : n < 15) (u : Fin 4096) (c' : Fin 128) :
    outAt m c n hn (ix2 u c') = Cert.Spec.partialAgg (aInter m c) (aEntity m c) n u c' := by
  induction n with
  | zero =>
    show k0_pay1 (F := Ideal) (bInter m c ⟨0, hn⟩) (bEntity m c ⟨0, hn⟩) (ix2 u c') = _
    rw [bInter_eq, bEntity_eq, Cert.KernelIdeal.PayValue.pay1_apply, Cert.Spec.partialAgg_zero]
    rfl
  | succ n ih =>
    have ih' := ih (Nat.lt_of_succ_lt hn) (by omega)
    show (if n + 1 = 15 then _ else k0_pay2 (F := Ideal) (bInter m c ⟨n + 1, hn⟩) (bEntity m c ⟨n + 1, hn⟩)
      (outAt m c n (Nat.lt_of_succ_lt hn))) (ix2 u c') = _
    rw [if_neg (by omega), bInter_eq, bEntity_eq, Cert.KernelIdeal.PayValue.pay2_apply, ih',
      Cert.Spec.partialAgg_succ _ _ n (by omega)]
    rfl

/-- What the kernel computes: the aggregate times one plus the gate. -/
def result (c : Dev nD) : S4096x128.Idx → EReal := fun i =>
  Cert.Spec.agg (aInter m c) (aEntity m c) (i 0) (i 1)
    * (1 + Cert.Spec.gate (aUser m c) (aLatent m c) (aWeight m c) (i 0) (i 1))

/-- After point 15 the block holds the whole aggregate, scaled. -/
theorem outAt_last_apply (c : Dev nD) (hn : 15 < cfg0.N) (j : S4096x128.Idx) : outAt m c 15 hn j = result m c j := by
  obtain ⟨u, c', rfl⟩ : ∃ (u : Fin 4096) (c' : Fin 128), j = ix2 u c' := ⟨j 0, j 1, eq_ix2 j⟩
  have ih := outAt_partial m c 14 (Nat.lt_of_succ_lt hn) (by omega) u c'
  show (if 14 + 1 = 15 then k0_pay3 (F := Ideal) (bUser m c ⟨14 + 1, hn⟩) (bLatent m c ⟨14 + 1, hn⟩) (bWeight m c ⟨14 + 1, hn⟩)
      (k0_pay2 (F := Ideal) (bInter m c ⟨14 + 1, hn⟩) (bEntity m c ⟨14 + 1, hn⟩) (outAt m c 14 (Nat.lt_of_succ_lt hn)))
    else _) (ix2 u c') = _
  rw [if_pos rfl, bUser_eq, bLatent_eq, bWeight_eq, bInter_eq, bEntity_eq, Cert.KernelIdeal.PayValue.pay3_apply,
    Cert.KernelIdeal.PayValue.pay2_apply, ih]
  have hs := Cert.Spec.partialAgg_succ (aInter m c) (aEntity m c) 14 (by omega) u c'
  have hl := Cert.Spec.partialAgg_last (aInter m c) (aEntity m c) u c'
  show (Cert.Spec.partialAgg (aInter m c) (aEntity m c) 14 u c'
      + Cert.Spec.slabDot (Cert.Spec.slabI (aInter m c) ⟨14 + 1, by omega⟩) (Cert.Spec.slabE (aEntity m c) ⟨14 + 1, by omega⟩) u c')
    * (1 + Cert.Spec.gate (aUser m c) (aLatent m c) (aWeight m c) u c') = _
  rw [← hs, hl]
  rfl

/-! ## From the block to the array -/

/-- An index of the result array is in point t's block iff each coordinate is in the block's range. -/
theorem mem_blk5 (t : Fin cfg0.N) (i : S4096x128.Idx) :
    i ∈ ((cfg0.win 5).blk t).view.set ↔ ∀ a : Fin 2, win0_5.index t a * S4096x128.size a ≤ (i a).val
      ∧ (i a).val < win0_5.index t a * S4096x128.size a + S4096x128.size a := by
  show i ∈ ((View.whole main_v0).slice (win0_5.rect t)).set ↔ _
  rw [View.set_slice_whole, Rect.mem_set_unit]
  exact Iff.rfl

/-- The one write-back, after point 15, writes `result`. -/
theorem flushed_eq (c : Dev nD) (t : Fin cfg0.N) (hf : (cfg0.win 5).flush t = true) :
    (dats m 0 c).flushed 5 t = ((cfg0.win 5).blk t).view.read (Elt Ideal) (result m c) := by
  have hN : t.val < 16 := lt_of_lt_of_eq t.isLt (show cfg0.N = 16 from N_0)
  have h15 : t.val = 15 := by have := (flush0_5 t).mp hf; omega
  show (cfg0.win 5).cut (grid0.coords t) ((dats m 0 c).after 5 t) = _
  rw [after5]
  funext j
  show outAt m c t.val t.isLt j = result m c (((cfg0.win 5).blk t).view.emb j)
  have he : ((cfg0.win 5).blk t).view.emb j = j := by
    funext a; apply Fin.ext
    obtain ⟨e00, e01, e10, e11, e20, e21, e30, e31, e40, e41, e50, e51⟩ := idxFacts t
    match a with
    | ⟨0, _⟩ => show win0_5.index t (0 : Fin 2) * 4096 + 1 * (j 0).val = (j 0).val; omega
    | ⟨1, _⟩ => show win0_5.index t (1 : Fin 2) * 128 + 1 * (j 1).val = (j 1).val; omega
  rw [he]
  obtain ⟨n, hn⟩ := t
  obtain rfl : n = 15 := h15
  exact outAt_last_apply m c hn j

/-- Every index of the result array is in the block written back after point 15. -/
theorem covered (c : Dev nD) (i : S4096x128.Idx) :
    ∃ t : Fin cfg0.N, (cfg0.win 5).flush t = true ∧ i ∈ ((cfg0.win 5).blk t).view.set := by
  have h15 : 15 < cfg0.N := by rw [show cfg0.N = 16 from N_0]; decide
  refine ⟨⟨15, h15⟩, (flush0_5 _).mpr rfl, ?_⟩
  rw [mem_blk5]
  obtain ⟨e00, e01, e10, e11, e20, e21, e30, e31, e40, e41, e50, e51⟩ := idxFacts ⟨15, h15⟩
  intro a
  match a with
  | ⟨0, _⟩ =>
    show win0_5.index ⟨15, h15⟩ (0 : Fin 2) * 4096 ≤ (i 0).val ∧ (i 0).val < win0_5.index ⟨15, h15⟩ (0 : Fin 2) * 4096 + 4096
    have hi : (i 0).val < 4096 := (i 0).isLt
    omega
  | ⟨1, _⟩ =>
    show win0_5.index ⟨15, h15⟩ (1 : Fin 2) * 128 ≤ (i 1).val ∧ (i 1).val < win0_5.index ⟨15, h15⟩ (1 : Fin 2) * 128 + 128
    have hi : (i 1).val < 128 := (i 1).isLt
    omega

/-- The result array after the run. -/
theorem final (c : Dev nD) : (dats m 0 c).arrAt 5 cfg0.N = result m c :=
  (dats m 0 c).arrAt_eq_of_cover 5 (result m c) (fun t hf => flushed_eq m c t hf) (covered c)

/-! ## The run, read -/

/-- Every weakly fair execution of the idealized kernel terminates with the result array at `result` of the argument
    arrays, and the argument arrays unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final m c),
      ((h c).1 4).trans (((dats m 0 c).arrAt_in 4 rfl _).trans ((A_eq m c 4).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.Resident

end
-- ==== Proof.RefValue.lean ====
/-
  The reference's result read at one entry: the user aggregate times the gate (weight on the left) plus the
  aggregate, each stage of the host program read at an index.
-/
import proofs.«139097_g16647293239300_cont_7to1_181_15_alg».proof.Proof.Spec
import proofs.«139097_g16647293239300_cont_7to1_181_15_alg».proof.Proof.Gen.ReferenceIdeal.Read
import Idealize.ShloMosaic.PureOps.Ideal.Laws
import Idealize.ShloMosaic.Lib.ValueIdx
import Idealize.ShloMosaic.Lib.Pipeline.Value

noncomputable section

open scoped BigOperators

namespace Cert.ReferenceIdeal.RefValue

open Idealize.ShloMosaic Idealize.ShloMosaic.ValueIdx Cert.ReferenceIdeal Cert.ReferenceIdeal.Gen Cert.ReferenceIdeal.Read

/-- The scores stage at (u, f): the inner product of user row u and factor row f (the factor matrix is read
    transposed, so its entry (k, f) is L[f, k]). -/
theorem score_apply (U : FVec Ideal S4096x128 .f32) (L : FVec Ideal S8x128 .f32) (u : Fin 4096) (f : Fin 8) :
    val_main_v1 (F := Ideal) U L (ix2 u f) = Cert.Spec.score U L u f := by
  rw [val_main_v1_apply]
  unfold Cert.Spec.score
  refine Finset.sum_congr rfl fun k _ => ?_
  rw [val_main_v0_apply]
  have e1 : lidx_main_v1 (ix2 u f) k = ix2 u k :=
    funext fun a => Fin.ext (by match a with | ⟨0, _⟩ => rfl | ⟨1, _⟩ => rfl)
  have e2 : idx_main_v0 (ridx_main_v1 (ix2 u f) k) = ix2 f k :=
    funext fun a => Fin.ext (by match a with | ⟨0, _⟩ => rfl | ⟨1, _⟩ => rfl)
  rw [e1, e2]

/-- Row u of the scores with factor k put back on the reduced axis is the entry (u, k). -/
theorem lift_row (h : S4096x8.Reduces [1] S4096) (u : Fin 4096) (k : Fin (S4096x8.size 1)) :
    h.lift (ix1 u) k = ix2 u (⟨k.val, k.isLt⟩ : Fin 8) := by
  funext c; apply Fin.ext
  match c with
  | ⟨0, _⟩ => rfl
  | ⟨1, _⟩ => rfl

/-- The maximum stage at u: the fold of max from −∞ over the eight scores of row u. -/
theorem rowFold_apply (U : FVec Ideal S4096x128 .f32) (L : FVec Ideal S8x128 .f32) (u : Fin 4096) :
    val_main_v2 (F := Ideal) U L (ix1 u)
      = (Finset.univ : Finset (Fin 8)).fold max Cert.Spec.negInf (fun f => Cert.Spec.score U L u f) := by
  have h : S4096x8.Reduces [1] S4096 := by decide
  unfold val_main_v2
  refine (Host.reduce_eq_fold_single (α := Ideal .f32) (FloatOps.maximumf (F := Ideal) (φ := .f32))
    (val_main_v1 (F := Ideal) U L) (val_main_cst (F := Ideal)) reducesTo_S4096x8_S4096_d1 h h_S_ (ix1 u)).trans ?_
  have hf : (val_main_v1 (F := Ideal) U L ∘ h.lift (ix1 u)) = fun f : Fin 8 => Cert.Spec.score U L u f :=
    funext fun k => (congrArg (val_main_v1 (F := Ideal) U L) (lift_row h u k)).trans (score_apply U L u _)
  exact congrArg (fun g => Finset.fold max Cert.Spec.negInf g (Finset.univ : Finset (Fin 8))) hf

/-- The row maximum, taken once more against the −∞ broadcast. -/
theorem rowMax_apply (U : FVec Ideal S4096x128 .f32) (L : FVec Ideal S8x128 .f32) (u : Fin 4096) :
    val_main_v4 (F := Ideal) U L (ix1 u) = Cert.Spec.rowMax U L u := by
  rw [val_main_v4_apply, val_main_v3_apply, val_main_cst_0_apply, rowFold_apply]
  rfl

/-- The shifted exponential at (u, f). -/
theorem expo_apply (U : FVec Ideal S4096x128 .f32) (L : FVec Ideal S8x128 .f32) (u : Fin 4096) (f : Fin 8) :
    val_main_v8 (F := Ideal) U L (ix2 u f) = Cert.Spec.expo U L u f := by
  have e : idx_main_v5 (idx_main_v6 (ix2 u f)) = ix1 u :=
    funext fun a => Fin.ext (by match a with | ⟨0, _⟩ => rfl)
  rw [val_main_v8_apply, val_main_v7_apply, val_main_v6_apply, val_main_v5_apply, e, score_apply, rowMax_apply]
  rfl

/-- The softmax at (u, f): the exponential over the row's sum of exponentials. -/
theorem soft_apply (U : FVec Ideal S4096x128 .f32) (L : FVec Ideal S8x128 .f32) (u : Fin 4096) (f : Fin 8) :
    val_main_v12 (F := Ideal) U L (ix2 u f) = Cert.Spec.soft U L u f := by
  have e : ∀ k : Fin 8, idx_main_v9 (idx_main_v10 (idx_main_v11 (ix2 u f))) k = ix2 u k := fun k =>
    funext fun a => Fin.ext (by match a with | ⟨0, _⟩ => rfl | ⟨1, _⟩ => rfl)
  rw [val_main_v12_apply, val_main_v11_apply, val_main_v10_apply, val_main_v9_apply, val_main_cst_1_apply, expo_apply]
  simp only [e, expo_apply, Ideal.ofBits_def, Ideal.ofBits_zero_f32, zero_add, Ideal.hostDivf_def]
  rfl

/-- The aggregate stage at (u, c): row u of the interaction matrix against column c of the entity embeddings. -/
theorem agg_apply (E : FVec Ideal S16384x128 .f32) (I : FVec Ideal S4096x16384 .f32) (u : Fin 4096) (c : Fin 128) :
    val_main_v14 (F := Ideal) E I (ix2 u c) = Cert.Spec.agg I E u c := by
  rw [val_main_v14_apply]
  unfold Cert.Spec.agg
  refine Finset.sum_congr rfl fun k _ => ?_
  have e1 : lidx_main_v14 (ix2 u c) k = ix2 u k :=
    funext fun a => Fin.ext (by match a with | ⟨0, _⟩ => rfl | ⟨1, _⟩ => rfl)
  have e2 : ridx_main_v14 (ix2 u c) k = ix2 k c :=
    funext fun a => Fin.ext (by match a with | ⟨0, _⟩ => rfl | ⟨1, _⟩ => rfl)
  rw [e1, e2]

/-- The gate stage at (u, c): the factor weights against the softmax, weight on the left, summed over the factors. -/
theorem gateRef_apply (U : FVec Ideal S4096x128 .f32) (L W : FVec Ideal S8x128 .f32) (u : Fin 4096) (c : Fin 128) :
    val_main_v18 (F := Ideal) U L W (ix2 u c) = Cert.Spec.gateRef U L W u c := by
  have e1 : ∀ k : Fin 8, idx_main_v15 (idx_main_v18 (ix2 u c) k) = ix2 k c := fun k =>
    funext fun a => Fin.ext (by match a with | ⟨0, _⟩ => rfl | ⟨1, _⟩ => rfl)
  have e2 : ∀ k : Fin 8, idx_main_v13 (idx_main_v16 (idx_main_v18 (ix2 u c) k)) = ix2 u k := fun k =>
    funext fun a => Fin.ext (by match a with | ⟨0, _⟩ => rfl | ⟨1, _⟩ => rfl)
  rw [val_main_v18_apply, val_main_cst_2_apply]
  unfold Cert.Spec.gateRef
  rw [Ideal.ofBits_def, Ideal.ofBits_zero_f32, zero_add]
  refine Finset.sum_congr rfl fun k _ => ?_
  rw [val_main_v17_apply, val_main_v15_apply, val_main_v16_apply, val_main_v13_apply, e1, e2, soft_apply]
  rfl

/-- The reference's last stage at (u, c): aggregate · gate' + aggregate. -/
theorem ref_apply (E : FVec Ideal S16384x128 .f32) (U : FVec Ideal S4096x128 .f32) (L W : FVec Ideal S8x128 .f32)
    (I : FVec Ideal S4096x16384 .f32) (u : Fin 4096) (c : Fin 128) :
    val_main_v20 (F := Ideal) E U L W I (ix2 u c)
      = Cert.Spec.agg I E u c * Cert.Spec.gateRef U L W u c + Cert.Spec.agg I E u c := by
  rw [val_main_v20_apply, val_main_v19_apply, agg_apply, gateRef_apply]
  rfl

end Cert.ReferenceIdeal.RefValue

end
-- ==== Proof.Bridge.lean ====
/-
  The two programs' results agree entry by entry. The reference ends at  agg · gate' + agg  and the kernel at
  agg · (1 + gate); gate' is gate with its factors commuted, and with the aggregate a REAL number (every entry of
  the interaction matrix and of the entity embeddings is finite) a·(1 + g) = a·g + a holds for every extended
  real g — the one step that uses the precondition.
-/
import proofs.«139097_g16647293239300_cont_7to1_181_15_alg».proof.Proof.RefValue
import proofs.«139097_g16647293239300_cont_7to1_181_15_alg».proof.Proof.Algebra

noncomputable section

namespace Cert.Bridge

open Idealize.ShloMosaic Idealize.ShloMosaic.ValueIdx Cert.ReferenceIdeal Cert.ReferenceIdeal.Read

/-- The reference's last stage at an entry is the aggregate times one plus the gate. -/
theorem ref_eq_result (E : FVec Ideal S16384x128 .f32) (U : FVec Ideal S4096x128 .f32) (L W : FVec Ideal S8x128 .f32)
    (I : FVec Ideal S4096x16384 .f32) (hE : ∀ i, ∃ r : ℝ, E i = (r : EReal)) (hI : ∀ i, ∃ r : ℝ, I i = (r : EReal))
    (j : S4096x128.Idx) :
    val_main_v20 (F := Ideal) E U L W I j
      = Cert.Spec.agg I E (j 0) (j 1) * (1 + Cert.Spec.gate U L W (j 0) (j 1)) := by
  obtain ⟨u, c, rfl⟩ : ∃ (u : Fin 4096) (c : Fin 128), j = ix2 u c := ⟨j 0, j 1, eq_ix2 j⟩
  obtain ⟨a, ha⟩ := Cert.Spec.agg_real I E hI hE u c
  refine (Cert.ReferenceIdeal.RefValue.ref_apply E U L W I u c).trans ?_
  rw [Cert.Spec.gateRef_eq]
  show Cert.Spec.agg I E u c * Cert.Spec.gate U L W u c + Cert.Spec.agg I E u c
    = Cert.Spec.agg I E u c * (1 + Cert.Spec.gate U L W u c)
  rw [ha]
  exact (Cert.Spec.scale_law a _).symm

end Cert.Bridge

end
-- ==== Proof.Finite.lean ====
/-
  From the precondition "every float input is finite" to: every entry of the entity embeddings and of the
  interaction matrix is a real number.
-/
import proofs.«139097_g16647293239300_cont_7to1_181_15_alg».proof.Pre_finite_inputs
import proofs.«139097_g16647293239300_cont_7to1_181_15_alg».proof.Proof.Gen.Pre_finite_inputs
import Idealize.ShloMosaic.PureOps.Ideal
import Idealize.ShloMosaic.Lib.ValueIdx
import Idealize.ShloMosaic.Lib.ReduceAll

noncomputable section

namespace Cert.Pre_finite_inputs.Finite

open Idealize.ShloMosaic Idealize.ShloMosaic.ValueIdx Cert.Pre_finite_inputs

/-- The rank-0 shape has one index. -/
instance : Subsingleton S_.Idx := ⟨fun a b => funext fun d => d.elim0⟩

/-- An extended real whose absolute value lies below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison |x| < +∞ read back at one entry: the entry is a real number. -/
theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  dsimp only at h'
  have hlt : max x (-x) < ⊤ := by
    by_contra hn
    rw [decide_eq_false hn] at h'
    exact absurd h' (by decide)
  exact real_of_abs_lt_top x hlt

/-- If the conjunction over all entries of |x| < +∞ holds, every entry of x is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
        (cmpf .olt (Host.absf x) (broadcastInDim s ![] hb (constant (F := Ideal) S_ .f32 0x7F800000#32)))
        (constantI S_ 1 1#1) hr hu ValueIdx.ix0 = 1#1) :
    ∀ i, ∃ r : ℝ, x i = (r : EReal) := by
  intro i
  have hi := Host.reduce_andi_all _ _ hr hu ValueIdx.ix0 h i
  exact real_of_cmp (x i) hi

/-- Under the printed precondition every entry of the first and of the last argument is a real. -/
theorem real_of_pre (E : FVec Ideal S16384x128 .f32) (U : FVec Ideal S4096x128 .f32) (L W : FVec Ideal S8x128 .f32)
    (I : FVec Ideal S4096x16384 .f32)
    (h : Cert.Pre_finite_inputs.fn (F := Ideal) E U L W I = fun _ => 1#1) :
    (∀ i, ∃ r : ℝ, E i = (r : EReal)) ∧ (∀ i, ∃ r : ℝ, I i = (r : EReal)) := by
  have h0 := congrFun h ValueIdx.ix0
  unfold fn fn_part1 at h0
  dsimp only at h0
  obtain ⟨h1234, h5⟩ := IntOp.andi_eq_one.1 h0
  obtain ⟨h123, _⟩ := IntOp.andi_eq_one.1 h1234
  obtain ⟨h12, _⟩ := IntOp.andi_eq_one.1 h123
  obtain ⟨h1, _⟩ := IntOp.andi_eq_one.1 h12
  exact ⟨real_of_all E _ _ _ h1, real_of_all I _ _ _ h5⟩

end Cert.Pre_finite_inputs.Finite

end
-- ==== Proof.lean ====
/-
  The certificate of a fused aggregator kernel against its jnp reference, over the extended reals.

  The kernel computes, for 4096 users and 128 channels, the aggregate  agg = I · E  of a [4096,16384] interaction
  matrix against [16384,128] entity embeddings, scaled by one plus a gate: the softmax over 8 latent factors of the
  users' scores against the factors, mixed with the factors' weights. It walks the entities in 16 slabs of 1024,
  keeping the [4096,128] result resident: the first slab's product resets it, every later slab's product is added,
  and at the last slab the sum is multiplied by (1 + gate). The reference forms the whole product at once and
  returns  agg · gate' + agg.
  At the ideal instance both are the same function of the arguments: a sum may be taken slab by slab, the gate's
  factors commute, and  a · (1 + g) = a · g + a  for a REAL a — which is where the precondition (every input finite,
  so the aggregate is a real number) is used. The ideal pass rewrote nothing, so `preserves` is trivial. The three
  frames: each program terminates without fault and leaves its argument arrays as they were.
-/
import proofs.«139097_g16647293239300_cont_7to1_181_15_alg».proof.Defs
import proofs.«139097_g16647293239300_cont_7to1_181_15_alg».proof.Proof.Gen.Kernel
import proofs.«139097_g16647293239300_cont_7to1_181_15_alg».proof.Proof.Gen.KernelIdeal
import proofs.«139097_g16647293239300_cont_7to1_181_15_alg».proof.Proof.Gen.ReferenceIdeal
import proofs.«139097_g16647293239300_cont_7to1_181_15_alg».proof.Proof.Gen.Pre_finite_inputs
import proofs.«139097_g16647293239300_cont_7to1_181_15_alg».proof.Proof.KernelFrame
import proofs.«139097_g16647293239300_cont_7to1_181_15_alg».proof.Proof.KernelIdealValue
import proofs.«139097_g16647293239300_cont_7to1_181_15_alg».proof.Proof.Bridge
import proofs.«139097_g16647293239300_cont_7to1_181_15_alg».proof.Proof.Finite
import Idealize.ShloMosaic.Adequacy
import Idealize.ShloMosaic.Init

noncomputable section

namespace Cert.Proof

open Idealize.ShloMosaic Idealize.SL.Sem

/-- The word-level kernel runs and leaves its arguments unchanged: the body's obligation at every grid point. -/
theorem frame_k : Cert.frame_Kernel (hKernel := Cert.Kernel.Gen.facts) (hPre_finite_inputs := Cert.Pre_finite_inputs.Gen.facts) :=
  fun m ρ _ => Cert.Kernel.Body.frame (F := Bits) m ρ

/-- The same text read at the ideal instance. -/
theorem frame_ki : Cert.frame_KernelIdeal (hKernelIdeal := Cert.KernelIdeal.Gen.facts) (hPre_finite_inputs := Cert.Pre_finite_inputs.Gen.facts) :=
  fun m ρ _ => Cert.KernelIdeal.Body.frame (F := Ideal) m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the result array at the aggregate
    times one plus the gate, entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Resident.result m c, Cert.KernelIdeal.Resident.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [h0, h1, h2, h3, h4]
  obtain ⟨hE, hI⟩ := Cert.Pre_finite_inputs.Finite.real_of_pre _ _ _ _ _ (hpre c)
  funext j
  exact Cert.Bridge.ref_eq_result _ _ _ _ _ hE hI j

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
